-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S10x4096 : Shape := ⟨2, ![10, 4096]⟩
abbrev S16384 : Shape := ⟨1, ![16384]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S10x4096 : S_.BroadcastsInDim S10x4096 (![] : Fin 0 → Fin S10x4096.rank)
  reducesTo_S10x4096_S_d0_1 : S10x4096.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x4096 .f32) (main_arg1 : FVec F S10x4096 .f32) (main_arg2 : IVec S16384 32) (main_arg3 : IVec S16384 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S10x4096 .f32 := Host.absf main_arg1
  let main_cst_0 : FVec F S_ .f32 := constant S_ .f32 0x7F800000#32
  let main_v5 : FVec F S10x4096 .f32 := broadcastInDim S10x4096 ![] bcast_S_S10x4096 main_cst_0
  let main_v6 : IVec S10x4096 1 := cmpf .olt main_v4 main_v5
  let main_c_1 : IVec S_ 1 := constantI S_ 1 1#1
  let main_v7 : IVec S_ 1 := (fun x v => Host.reduce IntOp.andi x v reducesTo_S10x4096_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 10#32
  let main_v13 : IVec S16384 32 := broadcastInDim S16384 ![] bcast_S_S16384 main_c_4
  let main_v14 : IVec S16384 1 := cmpi .slt main_arg2 main_v13
  let main_c_5 : IVec S_ 1 := constantI S_ 1 1#1
  let main_v15 : IVec S_ 1 := (fun x v => Host.reduce IntOp.andi x v reducesTo_S16384_S_d0 h_S_) main_v14 main_c_5
  fn_part1 (F := F) main_v12 main_v15
-- ==== Kernel.lean ====
abbrev S16384x4096 : Shape := ⟨2, ![16384, 4096]⟩
abbrev S10x4096 : Shape := ⟨2, ![10, 4096]⟩
abbrev S16384 : Shape := ⟨1, ![16384]⟩
abbrev S_ : Shape := ⟨0, ![]⟩
abbrev S16384x1 : Shape := ⟨2, ![16384, 1]⟩
abbrev S128x4096 : Shape := ⟨2, ![128, 4096]⟩
abbrev S4096x128 : Shape := ⟨2, ![4096, 128]⟩
abbrev S128 : Shape := ⟨1, ![128]⟩
abbrev S1x128 : Shape := ⟨2, ![1, 128]⟩
abbrev S16x128 : Shape := ⟨2, ![16, 128]⟩
abbrev S512x4096 : Shape := ⟨2, ![512, 4096]⟩
abbrev S512x1 : Shape := ⟨2, ![512, 1]⟩
abbrev S8x128 : Shape := ⟨2, ![8, 128]⟩
abbrev S512x128 : Shape := ⟨2, ![512, 128]⟩
abbrev S2x8x128 : Shape := ⟨3, ![2, 8, 128]⟩
abbrev S2x1x128 : Shape := ⟨3, ![2, 1, 128]⟩
abbrev S2x128 : Shape := ⟨2, ![2, 128]⟩
abbrev S2 : Shape := ⟨1, ![2]⟩

abbrev nBuf : Space → Nat
  | .hbm => 75
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S10x4096, .f32⟩
  | .hbm, ⟨2, _⟩ => ⟨S16384, .i32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S_, .i1⟩
  | .hbm, ⟨23, _⟩ => ⟨S16384, .i1⟩
  | .hbm, ⟨24, _⟩ => ⟨S16384, .i1⟩
  | .hbm, ⟨25, _⟩ => ⟨S16384, .i1⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i1⟩
  | .hbm, ⟨44, _⟩ => ⟨S_, .i32⟩
  | .hbm, ⟨45, _⟩ => ⟨S_, .i1⟩
  | .hbm, ⟨46, _⟩ => ⟨S16384, .i1⟩
  | .hbm, ⟨47, _⟩ => ⟨S16384, .i1⟩
  | .hbm, ⟨48, _⟩ => ⟨S16384, .i1⟩
  | .hbm, ⟨49, _⟩ => ⟨S16384, .i32⟩
  | .hbm, ⟨50, _⟩ => ⟨S16384, .i32⟩
  | .hbm, ⟨51, _⟩ => ⟨S16384, .i32⟩
  | .hbm, ⟨52, _⟩ => ⟨S16384x1, .i32⟩
  | .hbm, ⟨53, _⟩ => ⟨S16384x1, .i32⟩
  | .hbm, ⟨54, _⟩ => ⟨S_, .i32⟩
  | .hbm, ⟨55, _⟩ => ⟨S_, .f32⟩
  | .hbm, ⟨56, _⟩ => ⟨S128x4096, .f32⟩
  | .hbm, ⟨57, _⟩ => ⟨S4096x128, .f32⟩
  | .hbm, ⟨58, _⟩ => ⟨S4096x128, .bf16⟩
  | .hbm, ⟨59, _⟩ => ⟨S128x4096, .f32⟩
  | .hbm, ⟨60, _⟩ => ⟨S_, .f32⟩
  | .hbm, ⟨61, _⟩ => ⟨S128, .f32⟩
  | .hbm, ⟨62, _⟩ => ⟨S1x128, .f32⟩
  | .hbm, ⟨63, _⟩ => ⟨S16x128, .f32⟩
  | .hbm, ⟨64, _⟩ => ⟨S2x8x128, .f32⟩
  | .hbm, ⟨65, _⟩ => ⟨S2x1x128, .f32⟩
  | .hbm, ⟨66, _⟩ => ⟨S2x128, .f32⟩
  | .hbm, ⟨67, _⟩ => ⟨S_, .f32⟩
  | .hbm, ⟨68, _⟩ => ⟨S2, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x1, .i32⟩
  | .local _ .vmem, ⟨3, _⟩ => ⟨S512x1, .i32⟩
  | .local _ .vmem, ⟨4, _⟩ => ⟨S512x1, .i32⟩
  | .local _ .vmem, ⟨5, _⟩ => ⟨S512x1, .i32⟩
  | .local _ .vmem, ⟨6, _⟩ => ⟨S4096x128, .bf16⟩
  | .local _ .vmem, ⟨7, _⟩ => ⟨S1x128, .f32⟩
  | .local _ .vmem, ⟨8, _⟩ => ⟨S8x128, .f32⟩
  | .local _ .vmem, ⟨9, _⟩ => ⟨S8x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v2 : Ref sig .tc := ⟨.hbm, 28, rfl⟩
abbrev main_v3 : Ref sig .tc := ⟨.hbm, 29, rfl⟩
abbrev main_c_1 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_c_2 : Ref sig .tc := ⟨.hbm, 54, rfl⟩
abbrev main_call2_v0 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_cst : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_cst_3 : Ref sig .tc := ⟨.hbm, 67, rfl⟩
abbrev main_v17 : Ref sig .tc := ⟨.hbm, 68, rfl⟩
abbrev main_cst_4 : Ref sig .tc := ⟨.hbm, 69, rfl⟩
abbrev main_v18 : Ref sig .tc := ⟨.hbm, 70, rfl⟩
abbrev main_cst_5 : Ref sig .tc := ⟨.hbm, 71, rfl⟩
abbrev main_v19 : Ref sig .tc := ⟨.hbm, 72, rfl⟩
abbrev main_cst_6 : Ref sig .tc := ⟨.hbm, 73, rfl⟩
abbrev main_v20 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S16384 : S_.BroadcastsInDim S16384 (![] : Fin 0 → Fin S16384.rank)
  shapeCasts_S16384_S16384x1 : S16384.ShapeCasts S16384x1
  pads_S10x4096_S128x4096_01180_000 : S10x4096.Pads (![0, 0] : Fin 2 → Nat) ![118, 0] ![0, 0] S128x4096
  h_S_ : 0 < S_.numel
  transposes_S128x4096_S4096x128_1_0 : S128x4096.Transposes [1, 0] S4096x128
  bitsLt_bf16_f32 : FTy.bits .bf16 < FTy.bits .f32
  reducesTo_S128x4096_S128_d1 : S128x4096.ReducesTo [1] S128
  shapeCasts_S128_S1x128 : S128.ShapeCasts S1x128
  inb_S8x128_S8x128_0_0 : ∀ a, (![0, 0] : Fin 2 → Nat) a + S8x128.size a ≤ S8x128.size a
  h_S8x128 : 0 < S8x128.numel
  inb_S512x4096_S512x4096_0_0 : ∀ a, (![0, 0] : Fin 2 → Nat) a + S512x4096.size a ≤ S512x4096.size a
  h_S512x4096 : 0 < S512x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S512x128_d1_w32 : S512x128.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  natLt_1_32 : 1 < 32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S128 : S512x128.Reduces [0] S128
  inb_S8x128_S1x128_0_0 : ∀ a, (![0, 0] : Fin 2 → Nat) a + S1x128.size a ≤ S8x128.size a
  shapeCasts_S16x128_S2x8x128 : S16x128.ShapeCasts S2x8x128
  slices_S2x8x128_S2x1x128_0_0_0 : S2x8x128.Slices ![0, 0, 0] S2x1x128
  shapeCasts_S2x1x128_S2x128 : S2x1x128.ShapeCasts S2x128
  reducesTo_S2x128_S2_d1 : S2x128.ReducesTo [1] S2
  reducesTo_S2_S_d0 : S2.ReducesTo [0] S_
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .i32 = 32 ∨ (Rect.block (s := S16384x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .bf16 = 32 ∨ (Rect.block (s := S4096x128) S4096x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4096x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S10x4096 : Shape := ⟨2, ![10, 4096]⟩
abbrev S16384 : Shape := ⟨1, ![16384]⟩
abbrev S_ : Shape := ⟨0, ![]⟩
abbrev S16384x1 : Shape := ⟨2, ![16384, 1]⟩

abbrev nBuf : Space → Nat
  | .hbm => 92
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S10x4096, .f32⟩
  | .hbm, ⟨2, _⟩ => ⟨S16384, .i32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S_, .i1⟩
  | .hbm, ⟨23, _⟩ => ⟨S16384, .i1⟩
  | .hbm, ⟨24, _⟩ => ⟨S16384, .i1⟩
  | .hbm, ⟨25, _⟩ => ⟨S16384, .i1⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i1⟩
  | .hbm, ⟨44, _⟩ => ⟨S_, .i32⟩
  | .hbm, ⟨45, _⟩ => ⟨S_, .i1⟩
  | .hbm, ⟨46, _⟩ => ⟨S16384, .i1⟩
  | .hbm, ⟨47, _⟩ => ⟨S16384, .i1⟩
  | .hbm, ⟨48, _⟩ => ⟨S16384, .i1⟩
  | .hbm, ⟨49, _⟩ => ⟨S16384, .i32⟩
  | .hbm, ⟨50, _⟩ => ⟨S16384, .i32⟩
  | .hbm, ⟨51, _⟩ => ⟨S16384, .i32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S16384, .i32⟩
  | .hbm, ⟨59, _⟩ => ⟨S16384x1, .i32⟩
  | .hbm, ⟨60, _⟩ => ⟨S16384x4096, .f32⟩
  | .hbm, ⟨61, _⟩ => ⟨S_, .i32⟩
  | .hbm, ⟨62, _⟩ => ⟨S16384, .i32⟩
  | .hbm, ⟨63, _⟩ => ⟨S16384, .i1⟩
  | .hbm, ⟨64, _⟩ => ⟨S_, .i32⟩
  | .hbm, ⟨65, _⟩ => ⟨S16384, .i32⟩
  | .hbm, ⟨66, _⟩ => ⟨S16384, .i32⟩
  | .hbm, ⟨67, _⟩ => ⟨S16384, .i32⟩
  | .hbm, ⟨68, _⟩ => ⟨S16384x1, .i32⟩
  | .hbm, ⟨69, _⟩ => ⟨S16384x4096, .f32⟩
  | .hbm, ⟨70, _⟩ => ⟨S16384x4096, .f32⟩
  | .hbm, ⟨71, _⟩ => ⟨S16384x4096, .f32⟩
  | .hbm, ⟨72, _⟩ => ⟨S_, .f32⟩
  | .hbm, ⟨73, _⟩ => ⟨S16384, .f32⟩
  | .hbm, ⟨74, _⟩ => ⟨S_, .f32⟩
  | .hbm, ⟨75, _⟩ => ⟨S16384, .f32⟩
  | .hbm, ⟨76, _⟩ => ⟨S16384, .f32⟩
  | .hbm, ⟨77, _⟩ => ⟨S16384x4096, .f32⟩
  | .hbm, ⟨78, _⟩ => ⟨S16384x4096, .f32⟩
  | .hbm, ⟨79, _⟩ => ⟨S_, .f32⟩
  | .hbm, ⟨80, _⟩ => ⟨S16384, .f32⟩
  | .hbm, ⟨81, _⟩ => ⟨S_, .f32⟩
  | .hbm, ⟨82, _⟩ => ⟨S16384, .f32⟩
  | .hbm, ⟨83, _⟩ => ⟨S16384, .f32⟩
  | .hbm, ⟨84, _⟩ => ⟨S16384, .f32⟩
  | .hbm, ⟨85, _⟩ => ⟨S_, .f32⟩
  | .hbm, ⟨86, _⟩ => ⟨S16384, .f32⟩
  | .hbm, ⟨87, _⟩ => ⟨S16384, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v2 : Ref sig .tc := ⟨.hbm, 28, rfl⟩
abbrev main_v3 : Ref sig .tc := ⟨.hbm, 29, rfl⟩
abbrev main_c_1 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v4 : Ref sig .tc := ⟨.hbm, 51, rfl⟩
abbrev main_c_2 : Ref sig .tc := ⟨.hbm, 52, rfl⟩
abbrev main_v5 : Ref sig .tc := ⟨.hbm, 53, rfl⟩
abbrev main_v6 : Ref sig .tc := ⟨.hbm, 54, rfl⟩
abbrev main_c_3 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_c_4 : Ref sig .tc := ⟨.hbm, 61, rfl⟩
abbrev main_v12 : Ref sig .tc := ⟨.hbm, 62, rfl⟩
abbrev main_v13 : Ref sig .tc := ⟨.hbm, 63, rfl⟩
abbrev main_c_5 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_cst : Ref sig .tc := ⟨.hbm, 72, rfl⟩
abbrev main_v21 : Ref sig .tc := ⟨.hbm, 73, rfl⟩
abbrev main_cst_6 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_cst_7 : Ref sig .tc := ⟨.hbm, 79, rfl⟩
abbrev main_v26 : Ref sig .tc := ⟨.hbm, 80, rfl⟩
abbrev main_cst_8 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_cst_9 : Ref sig .tc := ⟨.hbm, 85, rfl⟩
abbrev main_v30 : Ref sig .tc := ⟨.hbm, 86, rfl⟩
abbrev main_v31 : Ref sig .tc := ⟨.hbm, 87, rfl⟩
abbrev main_cst_10 : Ref sig .tc := ⟨.hbm, 88, rfl⟩
abbrev main_v32 : Ref sig .tc := ⟨.hbm, 89, rfl⟩
abbrev main_cst_11 : Ref sig .tc := ⟨.hbm, 90, rfl⟩
abbrev main_v33 : Ref sig .tc := ⟨.hbm, 91, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x4096_S16384_d1 : S16384x4096.ReducesTo [1] S16384
  h_S_ : 0 < S_.numel
  reducesTo_S16384_S_d0 : S16384.ReducesTo [0] S_
  gather_S10x4096_S16384x1_S16384x4096_1_0_n_n_0_1_14096_wf : GatherDims.WF S10x4096 S16384x1 S16384x4096 [1] [0] [] [0] [] 1 ![1, 4096]

variable [Facts₀]

def gather_S10x4096_S16384x1_S16384x4096_1_0_n_n_0_1_14096 : GatherDims S10x4096 S16384x1 S16384x4096 where
  offsetDims := [1]
  collapsedSliceDims := [0]
  operandBatchingDims := []
  startIndicesBatchingDims := []
  startIndexMap := [0]
  indexVectorDim := 1
  sliceSizes := ![1, 4096]
  wf := gather_S10x4096_S16384x1_S16384x4096_1_0_n_n_0_1_14096_wf

class Facts : Prop extends Facts₀ where

variable [Facts]
-- ==== Proof.KerPieces.lean ====
/-
  What one run of the kernel body leaves in the output's 8×128 staging block, for any float instance.
  At the first block of a core the body clears the block and then stores, over its top row, that row plus the
  block's contribution: the top row ends at the contribution over zeros, the other seven rows at zero. At every
  later block it only stores the top row again, the row it finds there plus the contribution: the other rows keep
  what the block before left.
-/
import proofs.«407653_j73632919323010_3_alg».proof.Proof.Gen.KernelIdeal.Frame
import Idealize.ShloMosaic.Lib.Pipeline.Value
import Idealize.ShloMosaic.Lib.ValueIdx
import Idealize.ShloMosaic.Lib.Tactic
import Idealize.ShloMosaic.Lib.WritesUnit

noncomputable section

namespace Cert.KernelIdeal.KV

open Idealize.ShloMosaic Idealize.ShloMosaic.TcCoe Idealize.ShloMosaic.ValueIdx Idealize.SL.Sem
open Cert.KernelIdeal Cert.KernelIdeal.Gen

variable {F : FTy → Type} [FloatOps F]

/-- The top row of an 8×128 block, as the 1×128 vector the body loads before it accumulates. -/
def oldRow (xo : Vec F S8x128 .f32) : Vec F S1x128 .f32 :=
  fun z => xo (ix2 (0 : Fin 8) (⟨(z 1).val, (z 1).isLt⟩ : Fin 128))

theorem oldRow_apply (xo : Vec F S8x128 .f32) (k : Fin 128) : oldRow xo (ix2 (0 : Fin 1) k) = xo (ix2 (0 : Fin 8) k) := by
  rfl

/-- The zero offsets of a rank-2 rectangle, as the constant function. -/
theorem kerPieces_hz : (![0, 0] : Fin 2 → Nat) = fun _ => 0 := funext fun a => by fin_cases a <;> rfl

/-- A load through the 1×128 rectangle at the origin of an 8×128 block reads the block's top row: the rectangle's
    index `z` sits at row `0 + z 0 = 0` (the row coordinate of a 1×128 index is 0) and column `0 + z 1`. -/
theorem kerPieces_ld_topRow (X : Vec F S8x128 .f32) :
    View.ld (Val := Elt F) X (Rect.unit (s := S8x128) ![0, 0] S1x128.size inb_S8x128_S1x128_0_0) = oldRow X := by
  funext z
  show X _ = X _
  congr 1
  funext a
  fin_cases a
  · apply Fin.ext
    have h0 : (z 0).val < 1 := (z 0).isLt
    show 0 + 1 * (z 0).val = 0
    omega
  · apply Fin.ext
    show 0 + 1 * (z 1).val = (z 1).val
    omega

/-- The top row read back after ONE store of a whole 8×128 block `w` is `w`'s top row: the store covers every index,
    so the block reads `w`, and the load is the one above. -/
theorem kerPieces_readCov_topRow {sg : RefSig} {κ : Kind} {sp : Space} (v : View sg κ sp S8x128 .f32)
    (w : Vec F S8x128 .f32) :
    View.readCov (Val := Elt F) v [⟨Rect.unit (s := S8x128) ![0, 0] S8x128.size inb_S8x128_S8x128_0_0, w⟩]
      (Rect.unit (s := S8x128) ![0, 0] S1x128.size inb_S8x128_S1x128_0_0).toLoadRect = oldRow w := by
  rw [View.readCov_eq_canon', View.canon_unit_zero kerPieces_hz]
  exact kerPieces_ld_topRow w

/-- The first block of a core: the top row is the contribution over the cleared row, the rest is cleared. -/
theorem out_A_apply (c : Dev nD) (i : grid0.Coords) (a2 : Memref sig .tc .vmem S512x4096 .f32) (h2 : a2.IsWhole)
    (a3 : Memref sig .tc .vmem S512x1 .i32) (h3 : a3.IsWhole) (a4 : Memref sig .tc .vmem S512x1 .i32) (h4 : a4.IsWhole)
    (a5 : Memref sig .tc .vmem S4096x128 .bf16) (h5 : a5.IsWhole) (a6 : Memref sig .tc .vmem S1x128 .f32) (h6 : a6.IsWhole)
    (a7 : Memref sig .tc .vmem S8x128 .f32) (h7 : a7.IsWhole) (hc : cond0_0 i)
    (x0 : Vec F S512x4096 .f32) (x1 : Vec F S512x1 .i32) (x2 : Vec F S512x1 .i32) (x3 : Vec F S4096x128 .bf16)
    (x4 : Vec F S1x128 .f32) (ρ : Fin 8) (k : Fin 128) :
    out0_A_5 c i a2 h2 a3 h3 a4 h4 a5 h5 a6 h6 a7 h7 hc x0 x1 x2 x3 x4 (ix2 ρ k)
      = if ρ.val = 0 then k0_pay2 x0 x3 x1 x2 x4 (oldRow (k0_pay1 (F := F))) (ix2 (0 : Fin 1) k)
        else k0_pay1 (F := F) (ix2 ρ k) := by
  -- the block is read through the two stores, the later first: the top-row store, then the clearing store
  unfold out0_A_5
  unfold kernelRun0_A
  dsimp only
  sl_unfold_words
  -- each input's whole-block load reads the input block
  simp only [View.readAt_eq_ld, h2.read_unread, h3.read_unread, h4.read_unread, h5.read_unread, h6.read_unread,
    View.ld_unit_zero (S := S512x4096) kerPieces_hz, View.ld_unit_zero (S := S4096x128) kerPieces_hz,
    View.ld_unit_zero (S := S512x1) kerPieces_hz, View.ld_unit_zero (S := S1x128) kerPieces_hz]
  by_cases hρ : ρ.val = 0
  · -- row 0 lies under the later store, at its index (0, k); the row it accumulates onto is the cleared block's
    rw [if_pos hρ]
    refine (View.read_writes_cons_rows_of_mem VO0_5 VO0_5.junk inb_S8x128_S1x128_0_0 _ _ (ix2 ρ k)
      (ix2 (0 : Fin 1) k) rfl hρ rfl).trans ?_
    exact congrFun (congrArg (k0_pay2 x0 x3 x1 x2 x4) (kerPieces_readCov_topRow a7.view (k0_pay1 (F := F))))
      (ix2 (0 : Fin 1) k)
  · -- a row ρ ≥ 1 misses the later store (rows [0, 1)) and lies under the clearing store at its own index
    rw [if_neg hρ]
    refine (View.read_writes_cons_rows_of_not_mem VO0_5 VO0_5.junk inb_S8x128_S1x128_0_0 _ _ (ix2 ρ k) rfl rfl
      (Or.inr ?_)).trans ?_
    · show 0 + 1 ≤ ρ.val
      omega
    · exact View.read_writes_cons_rows_of_mem VO0_5 VO0_5.junk inb_S8x128_S8x128_0_0 _ [] (ix2 ρ k)
        (ix2 ρ k) rfl (Nat.zero_add _).symm rfl

/-- A later block: the top row is the contribution over the row found there, the rest is kept. -/
theorem out_B_apply (c : Dev nD) (i : grid0.Coords) (a2 : Memref sig .tc .vmem S512x4096 .f32) (h2 : a2.IsWhole)
    (a3 : Memref sig .tc .vmem S512x1 .i32) (h3 : a3.IsWhole) (a4 : Memref sig .tc .vmem S512x1 .i32) (h4 : a4.IsWhole)
    (a5 : Memref sig .tc .vmem S4096x128 .bf16) (h5 : a5.IsWhole) (a6 : Memref sig .tc .vmem S1x128 .f32) (h6 : a6.IsWhole)
    (a7 : Memref sig .tc .vmem S8x128 .f32) (h7 : a7.IsWhole) (hc : ¬cond0_0 i)
    (x0 : Vec F S512x4096 .f32) (x1 : Vec F S512x1 .i32) (x2 : Vec F S512x1 .i32) (x3 : Vec F S4096x128 .bf16)
    (x4 : Vec F S1x128 .f32) (xo : Vec F S8x128 .f32) (ρ : Fin 8) (k : Fin 128) :
    out0_B_5 c i a2 h2 a3 h3 a4 h4 a5 h5 a6 h6 a7 h7 hc x0 x1 x2 x3 x4 xo (ix2 ρ k)
      = if ρ.val = 0 then k0_pay2 x0 x3 x1 x2 x4 (oldRow xo) (ix2 (0 : Fin 1) k)
        else xo (ix2 ρ k) := by
  -- the block is read through the one top-row store, over the contents `xo` found there
  unfold out0_B_5
  unfold kernelRun0_B
  dsimp only
  sl_unfold_words
  -- each input's whole-block load reads the input block, and the buffer found reads `xo`
  simp only [View.readAt_eq_ld, h2.read_unread, h3.read_unread, h4.read_unread, h5.read_unread, h6.read_unread,
    h7.read_unread, View.ld_unit_zero (S := S512x4096) kerPieces_hz, View.ld_unit_zero (S := S4096x128) kerPieces_hz,
    View.ld_unit_zero (S := S512x1) kerPieces_hz, View.ld_unit_zero (S := S1x128) kerPieces_hz]
  by_cases hρ : ρ.val = 0
  · -- row 0 lies under the store, at its index (0, k); the row it accumulates onto is `xo`'s top row
    rw [if_pos hρ]
    refine (View.read_writes_cons_rows_of_mem a7.view (h7.unread xo) inb_S8x128_S1x128_0_0 _ [] (ix2 ρ k)
      (ix2 (0 : Fin 1) k) rfl hρ rfl).trans ?_
    exact congrFun (congrArg (k0_pay2 x0 x3 x1 x2 x4) (kerPieces_ld_topRow xo)) (ix2 (0 : Fin 1) k)
  · -- a row ρ ≥ 1 misses the store (rows [0, 1)) and keeps what was there
    rw [if_neg hρ]
    refine (View.read_writes_cons_rows_of_not_mem a7.view (h7.unread xo) inb_S8x128_S1x128_0_0 _ [] (ix2 ρ k) rfl rfl
      (Or.inr ?_)).trans ?_
    · show 0 + 1 ≤ ρ.val
      omega
    · rw [View.writes_nil, h7.read_unread]

end Cert.KernelIdeal.KV

end
-- ==== Proof.Consts.lean ====
/-
  The float literals of the two programs, read at the ideal instance: each 32-bit pattern denotes an exact real.
-/
import Idealize.ShloMosaic.PureOps.Ideal
import Idealize.ShloMosaic.PureOps.Ideal.Laws

noncomputable section

namespace Cert.Consts

open Idealize.ShloMosaic

/-- The margin both programs add: the real number the pattern of `f32(0.1)` denotes. -/
def margin : ℝ := EReal.toReal (Ideal.ofBits .f32 0x3DCCCCCD#32)

/-- The pattern of `f32(0.1)` has exponent field 123, neither all ones nor zero: it is a normal number,
    the real `13421773 · 2⁻²⁷`. -/
private theorem ofBits_margin_real :
    Ideal.ofBits .f32 0x3DCCCCCD#32 = ((13421773 * (2 : ℝ) ^ (-27 : ℤ) : ℝ) : EReal) := by
  simp [Ideal.ofBits, Ideal.ieee, -EReal.coe_mul]

theorem ofBits_margin : Ideal.ofBits .f32 0x3DCCCCCD#32 = ((margin : ℝ) : EReal) := by
  unfold margin
  rw [ofBits_margin_real, EReal.toReal_coe]

theorem ofBits_two : Ideal.ofBits .f32 0x40000000#32 = ((2 : ℝ) : EReal) := by
  simp [Ideal.ofBits, Ideal.ieee, -EReal.coe_mul]; norm_num

theorem ofBits_inv4096 : Ideal.ofBits .f32 0x39800000#32 = ((1 / 4096 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_16384 : Ideal.ofBits .f32 0x46800000#32 = ((16384 : ℝ) : EReal) := by
  simp [Ideal.ofBits, Ideal.ieee, -EReal.coe_mul]; norm_num

end Cert.Consts

end
-- ==== Proof.KerPayload.lean ====
/-
  The body's arithmetic at the ideal instance, lane by lane, when what it loads is real: for lane `k`, the row it
  found plus `2⁻¹²` times the sum over the block's 512 samples of the signed selection (one at the sample's
  positive label, minus one at its negative label) of `‖a_k‖² − 2 p·a_k`, the inner product being the matrix
  product's sum over the 4096 features.
-/
import proofs.«407653_j73632919323010_3_alg».proof.Proof.Gen.KernelIdeal.Skeleton
import proofs.«407653_j73632919323010_3_alg».proof.Proof.Consts
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.KV

open Idealize.ShloMosaic Idealize.ShloMosaic.ValueIdx
open Cert.KernelIdeal Cert.KernelIdeal.Gen

namespace KerPayload

/-! The product's operand indices, axis by axis. -/

theorem lhs_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide),
    dif_pos (show (0 : Fin S512x4096.rank) ∈ dot_S512x4096_S4096x128_S512x128_1_0_0_1_n_n.lhsNonContracting by decide)]
  rfl

theorem lhs_1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q

theorem rhs_0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q

theorem rhs_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide),
    dif_pos (show (1 : Fin S4096x128.rank) ∈ dot_S512x4096_S4096x128_S512x128_1_0_0_1_n_n.rhsNonContracting by decide)]
  rfl

/-- The block product at (r, k): the sum over the 4096 features of the operands' products. -/
theorem mm_apply (L : FVec Ideal S512x4096 .bf16) (R : FVec Ideal S4096x128 .bf16) (r : Fin 512) (k : Fin 128) :
    matmul dot_S512x4096_S4096x128_S512x128_1_0_0_1_n_n none L R (constant (F := Ideal) S512x128 .f32 0x00000000#32) (ix2 r k)
      = ∑ d : Fin 4096, L (ix2 r d) * R (ix2 d k) := by
  simp only [matmul]
  rw [Ideal.matmul_constant_zero_apply,
    ← Equiv.sum_comp (contrEquiv1 dot_S512x4096_S4096x128_S512x128_1_0_0_1_n_n 4096 rfl rfl).symm]
  refine Finset.sum_congr rfl fun d _ => ?_
  have hk := contrEquiv1_symm_val dot_S512x4096_S4096x128_S512x128_1_0_0_1_n_n 4096 rfl rfl d
  have el : dot_S512x4096_S4096x128_S512x128_1_0_0_1_n_n.lhsIdx (ix2 r k)
      ((contrEquiv1 dot_S512x4096_S4096x128_S512x128_1_0_0_1_n_n 4096 rfl rfl).symm d) = ix2 r d :=
    funext fun a => Fin.ext (by
      match a with
      | ⟨0, _⟩ => exact lhs_0 _ _
      | ⟨1, _⟩ => exact (lhs_1 _ _).trans hk)
  have er : dot_S512x4096_S4096x128_S512x128_1_0_0_1_n_n.rhsIdx (ix2 r k)
      ((contrEquiv1 dot_S512x4096_S4096x128_S512x128_1_0_0_1_n_n 4096 rfl rfl).symm d) = ix2 d k :=
    funext fun a => Fin.ext (by
      match a with
      | ⟨0, _⟩ => exact (rhs_0 _ _).trans hk
      | ⟨1, _⟩ => exact rhs_1 _ _)
  rw [el, er]

/-! The selection weight: the lane's number against a sample's label. -/

/-- A column of `a` entries broadcast over `b` lanes reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The 32-bit words of two numbers below `2 ^ 32` are equal exactly when the numbers are. -/
theorem ofNat32_eq_iff (k m : ℕ) (hk : k < 2 ^ 32) (hm : m < 2 ^ 32) : BitVec.ofNat 32 k = BitVec.ofNat 32 m ↔ k = m := by
  constructor
  · intro h
    have h' := congrArg BitVec.toNat h
    simp only [BitVec.toNat_ofNat] at h'
    rwa [Nat.mod_eq_of_lt hk, Nat.mod_eq_of_lt hm] at h'
  · rintro rfl; rfl

/-- The one-bit answer of "are the two words equal", widened to 32 bits and converted, is the real one or zero. -/
theorem sel_word (k m : ℕ) (hk : k < 128) (hm : m < 10) :
    (FloatOps.sitofp (F := Ideal) .f32 ((IntOp.cmpi .eq (BitVec.ofNat 32 k) (BitVec.ofNat 32 m)).setWidth 32) : Ideal .f32)
      = (((if k = m then (1 : ℝ) else 0) : ℝ) : EReal) := by
  show ((((IntOp.cmpi .eq (BitVec.ofNat 32 k) (BitVec.ofNat 32 m)).setWidth 32).toInt : ℝ) : EReal) = _
  by_cases h : k = m
  · subst h
    have e : IntOp.cmpi .eq (BitVec.ofNat 32 k) (BitVec.ofNat 32 k) = 1#1 := by simp [IntOp.cmpi]
    rw [e, if_pos rfl]
    have e1 : ((1#1 : BitVec 1).setWidth 32).toInt = 1 := by decide
    rw [e1, Int.cast_one]
  · have hne : BitVec.ofNat 32 k ≠ BitVec.ofNat 32 m := fun e => h ((ofNat32_eq_iff k m (by omega) (by omega)).1 e)
    have e : IntOp.cmpi .eq (BitVec.ofNat 32 k) (BitVec.ofNat 32 m) = 0#1 := by
      show BitVec.ofBool (BitVec.ofNat 32 k == BitVec.ofNat 32 m) = 0#1
      rw [beq_eq_false_iff_ne.2 hne]
      rfl
    rw [e, if_neg h]
    have e0 : ((0#1 : BitVec 1).setWidth 32).toInt = 0 := by decide
    rw [e0, Int.cast_zero]

/-- The selection block of a label column at (r, k): one where lane `k` is sample `r`'s label, else zero. -/
theorem sel_apply (lab : IVec S512x1 32) (r : Fin 512) (k : Fin 128) (m : ℕ) (hm : m < 10)
    (h : lab (ix2 r (0 : Fin 1)) = BitVec.ofNat 32 m) :
    (sitofp .f32 (extui 32 (cmpi .eq (iota .tc S512x128 32 [1] iota_S512x128_d1_w32)
        (broadcastTo S512x128 (shapeCast S512x1 lab shapeCasts_S512x1_S512x1) broadcasts_S512x1_S512x128)) natLt_1_32)
      : FVec Ideal S512x128 .f32) (ix2 r k) = (((if k.val = m then (1 : ℝ) else 0) : ℝ) : EReal) := by
  show FloatOps.sitofp (F := Ideal) .f32 ((IntOp.cmpi .eq (iota .tc S512x128 32 [1] iota_S512x128_d1_w32 (ix2 r k))
      (broadcastTo S512x128 (shapeCast S512x1 lab shapeCasts_S512x1_S512x1) broadcasts_S512x1_S512x128 (ix2 r k))).setWidth 32) = _
  rw [iota_single_apply, shapeCast_self, broadcastTo_a1_ab_apply, h]
  exact sel_word k.val m k.isLt hm

/-! Real sums and the extended reals. -/

/-- A finite sum of reals, coerced, is the sum of the coercions. -/
theorem coe_sum {ι : Type} (s : Finset ι) (f : ι → ℝ) : ((∑ i ∈ s, f i : ℝ) : EReal) = ∑ i ∈ s, ((f i : ℝ) : EReal) := by
  classical
  refine Finset.induction_on s (by simp) fun i s hi ih => ?_
  rw [Finset.sum_insert hi, Finset.sum_insert hi, EReal.coe_add, ih]

/-! One sample's term, the lane sum, and the row. -/

/-- At (r, k): the signed selection times the squared norm less twice the inner product. -/
theorem term_apply (W1 W2 MM : FVec Ideal S512x128 .f32) (AN : FVec Ideal S1x128 .f32) (r : Fin 512) (k : Fin 128)
    (w1 w2 s an : ℝ) (h1 : W1 (ix2 r k) = ((w1 : ℝ) : EReal)) (h2 : W2 (ix2 r k) = ((w2 : ℝ) : EReal))
    (hs : MM (ix2 r k) = ((s : ℝ) : EReal)) (ha : AN (ix2 (0 : Fin 1) k) = ((an : ℝ) : EReal)) :
    mulf (subf W1 W2) (subf (broadcastTo S512x128 (shapeCast S1x128 AN shapeCasts_S1x128_S1x128) broadcasts_S1x128_S512x128)
        (mulf (broadcast S512x128 (Scalar.ofBits (F := Ideal) .f32 0x40000000#32)) MM)) (ix2 r k)
      = (((w1 - w2) * (an - 2 * s) : ℝ) : EReal) := by
  rw [mulf_apply, subf_apply, subf_apply, mulf_apply, broadcast_apply, broadcastTo_1b_ab_apply, shapeCast_self, h1, h2, hs, ha]
  show (((w1 : ℝ) : EReal) - ((w2 : ℝ) : EReal)) * (((an : ℝ) : EReal) - Ideal.ofBits .f32 0x40000000#32 * ((s : ℝ) : EReal)) = _
  rw [Consts.ofBits_two, EReal.coe_mul, EReal.coe_sub, EReal.coe_sub, EReal.coe_mul]

/-- The sum over the block's samples, recast as a row, at lane `k`. -/
theorem lane_apply (T : FVec Ideal S512x128 .f32) (k : Fin 128) :
    shapeCast S1x128 (multiReduction (F := Ideal) .add [0] S128 T 0x00000000#32 reduces_S512x128_S128 (.inl rfl) rfl)
        shapeCasts_S128_S1x128 (ix2 (0 : Fin 1) k) = ∑ r : Fin 512, T (ix2 r k) := by
  rw [shapeCast_a_1a_apply]
  refine (Ideal.multiReduction_add_single T _ reduces_S512x128_S128 _ _ (ix1 k)).trans ?_
  refine Finset.sum_congr rfl fun r _ => congrArg T ?_
  funext a
  refine Fin.ext ?_
  match a with
  | ⟨0, _⟩ => rfl
  | ⟨1, _⟩ => rfl

/-! The body's row, piece by piece. -/

/-- The selection block of a loaded label column. -/
private def selB (lab : IVec S512x1 32) : FVec Ideal S512x128 .f32 :=
  sitofp .f32 (extui 32 (cmpi .eq (iota .tc S512x128 32 [1] iota_S512x128_d1_w32)
    (broadcastTo S512x128 (shapeCast S512x1 lab shapeCasts_S512x1_S512x1) broadcasts_S512x1_S512x128)) natLt_1_32)

/-- The product of the narrowed samples with the transposed table, into the zero block. -/
private def mmB (x3 : FVec Ideal S512x4096 .f32) (x5 : FVec Ideal S4096x128 .bf16) : FVec Ideal S512x128 .f32 :=
  matmul dot_S512x4096_S4096x128_S512x128_1_0_0_1_n_n none (truncf .bf16 x3 bitsLt_bf16_f32)
    (shapeCast S4096x128 x5 shapeCasts_S4096x128_S4096x128) (constant (F := Ideal) S512x128 .f32 0x00000000#32)

/-- The block the body sums over its samples. -/
private def termB (x3 : FVec Ideal S512x4096 .f32) (x5 : FVec Ideal S4096x128 .bf16) (x9 x11 : IVec S512x1 32)
    (x22 : FVec Ideal S1x128 .f32) : FVec Ideal S512x128 .f32 :=
  mulf (subf (selB x9) (selB x11))
    (subf (broadcastTo S512x128 (shapeCast S1x128 x22 shapeCasts_S1x128_S1x128) broadcasts_S1x128_S512x128)
      (mulf (broadcast S512x128 (Scalar.ofBits (F := Ideal) .f32 0x40000000#32)) (mmB x3 x5)))

/-- The body's row is the old row plus the samples' sum of that block, scaled. -/
private theorem pay2_eq (x3 : Vec Ideal S512x4096 .f32) (x5 : Vec Ideal S4096x128 .bf16) (x9 x11 : Vec Ideal S512x1 .i32)
    (x22 x31 : Vec Ideal S1x128 .f32) :
    k0_pay2 (F := Ideal) x3 x5 x9 x11 x22 x31
      = addf (shapeCast S1x128 x31 shapeCasts_S1x128_S1x128)
          (mulf (shapeCast S1x128 (multiReduction (F := Ideal) .add [0] S128 (termB x3 x5 x9 x11 x22) 0x00000000#32
              reduces_S512x128_S128 (.inl rfl) rfl) shapeCasts_S128_S1x128)
            (broadcast S1x128 (Scalar.ofBits (F := Ideal) .f32 0x39800000#32))) := rfl

end KerPayload

open KerPayload

theorem pay1_apply (ρ : Fin 8) (k : Fin 128) : k0_pay1 (F := Ideal) (ix2 ρ k) = ((0 : ℝ) : EReal) := by
  show Ideal.ofBits .f32 0x00000000#32 = _
  rw [Ideal.ofBits_zero_f32]
  rfl

theorem pay2_real (x3 : Vec Ideal S512x4096 .f32) (x5 : Vec Ideal S4096x128 .bf16) (x9 x11 : Vec Ideal S512x1 .i32)
    (x22 x31 : Vec Ideal S1x128 .f32)
    (p : Fin 512 → Fin 4096 → ℝ) (a : Fin 128 → Fin 4096 → ℝ) (an o : Fin 128 → ℝ) (ps ns : Fin 512 → Fin 10)
    (hx3 : ∀ r d, x3 (ix2 r d) = ((p r d : ℝ) : EReal))
    (hx5 : ∀ d k, x5 (ix2 d k) = ((a k d : ℝ) : EReal))
    (hx9 : ∀ r : Fin 512, x9 (ix2 r (0 : Fin 1)) = BitVec.ofNat 32 (ps r).val)
    (hx11 : ∀ r : Fin 512, x11 (ix2 r (0 : Fin 1)) = BitVec.ofNat 32 (ns r).val)
    (hx22 : ∀ k, x22 (ix2 (0 : Fin 1) k) = ((an k : ℝ) : EReal))
    (hx31 : ∀ k, x31 (ix2 (0 : Fin 1) k) = ((o k : ℝ) : EReal)) (k : Fin 128) :
    k0_pay2 (F := Ideal) x3 x5 x9 x11 x22 x31 (ix2 (0 : Fin 1) k)
      = ((o k + (∑ r : Fin 512,
            ((if k.val = (ps r).val then (1 : ℝ) else 0) - (if k.val = (ns r).val then (1 : ℝ) else 0))
              * (an k - 2 * ∑ d : Fin 4096, p r d * a k d)) * (1 / 4096) : ℝ) : EReal) := by
  -- the inner product of sample r with row k of the table
  have hmm : ∀ r : Fin 512, mmB x3 x5 (ix2 r k) = ((∑ d : Fin 4096, p r d * a k d : ℝ) : EReal) := by
    intro r
    unfold mmB
    refine (mm_apply _ _ r k).trans ?_
    rw [coe_sum]
    refine Finset.sum_congr rfl fun d _ => ?_
    rw [truncf_apply, shapeCast_self, EReal.coe_mul]
    exact congrArg₂ (· * ·) (hx3 r d) (hx5 d k)
  -- one sample's term
  have hterm : ∀ r : Fin 512, termB x3 x5 x9 x11 x22 (ix2 r k)
      = ((((if k.val = (ps r).val then (1 : ℝ) else 0) - (if k.val = (ns r).val then (1 : ℝ) else 0))
          * (an k - 2 * ∑ d : Fin 4096, p r d * a k d) : ℝ) : EReal) := fun r =>
    term_apply (selB x9) (selB x11) (mmB x3 x5) x22 r k _ _ _ _
      (sel_apply x9 r k (ps r).val (ps r).isLt (hx9 r)) (sel_apply x11 r k (ns r).val (ns r).isLt (hx11 r)) (hmm r) (hx22 k)
  rw [pay2_eq, addf_apply, mulf_apply, broadcast_apply, shapeCast_self, lane_apply, hx31]
  show ((o k : ℝ) : EReal) + (∑ r : Fin 512, termB x3 x5 x9 x11 x22 (ix2 r k)) * Ideal.ofBits .f32 0x39800000#32 = _
  rw [Consts.ofBits_inv4096, Finset.sum_congr rfl (fun r _ => hterm r), ← coe_sum, ← EReal.coe_mul, ← EReal.coe_add]

end Cert.KernelIdeal.KV

end
-- ==== Proof.IntChain.lean ====
/-
  The negative class of a sample, as both programs compute it on the host before anything else:
  `(clss + 1 + neg_offset mod 9) mod 10` over 32-bit words, where `mod` is the floor remainder jnp lowers to
  (the truncated remainder, moved by the divisor when its sign differs from the divisor's). The two programs
  carry the same operations here, so the chain is one function of the two integer inputs; what the rest of the
  certificate uses of it is only that every entry is one of the ten class labels.
-/
import Idealize.ShloMosaic.PureOps
import Idealize.ShloMosaic.Lib.ValueIdx

noncomputable section

namespace Cert.IntChain

open Idealize.ShloMosaic Idealize.ShloMosaic.ValueIdx

abbrev SL : Shape := ⟨1, ![16384]⟩
abbrev S0 : Shape := ⟨0, ![]⟩

theorem hb : S0.BroadcastsInDim SL (![] : Fin 0 → Fin SL.rank) := by decide

/-- The floor remainder of each entry of `x` by the scalar `k` (a zero divisor replaced by one), as lowered. -/
def floorMod (x : IVec SL 32) (k : IVec S0 32) : IVec SL 32 :=
  select
    (andi
      (cmpi .ne
        (cmpi .slt (Host.remsi x (broadcastInDim SL ![] hb (select (cmpi .eq k (constantI S0 32 0#32)) (constantI S0 32 1#32) k)))
          (broadcastInDim SL ![] hb (constantI S0 32 0#32)))
        (broadcastInDim SL ![] hb
          (cmpi .slt (select (cmpi .eq k (constantI S0 32 0#32)) (constantI S0 32 1#32) k) (constantI S0 32 0#32))))
      (cmpi .ne (Host.remsi x (broadcastInDim SL ![] hb (select (cmpi .eq k (constantI S0 32 0#32)) (constantI S0 32 1#32) k)))
        (broadcastInDim SL ![] hb (constantI S0 32 0#32))))
    (addi (Host.remsi x (broadcastInDim SL ![] hb (select (cmpi .eq k (constantI S0 32 0#32)) (constantI S0 32 1#32) k)))
      (broadcastInDim SL ![] hb (select (cmpi .eq k (constantI S0 32 0#32)) (constantI S0 32 1#32) k)))
    (Host.remsi x (broadcastInDim SL ![] hb (select (cmpi .eq k (constantI S0 32 0#32)) (constantI S0 32 1#32) k)))

/-- The negative class: `(clss + 1 + off mod 9) mod 10`. -/
def negChain (clss off : IVec SL 32) : IVec SL 32 :=
  floorMod (addi (addi clss (broadcastInDim SL ![] hb (constantI S0 32 1#32))) (floorMod off (constantI S0 32 9#32)))
    (constantI S0 32 10#32)

/-- The floor remainder of one word `w` by the word `c`: what `floorMod` computes at each entry. -/
private def fmW (w c : BitVec 32) : BitVec 32 :=
  Scalar.select
    (IntOp.andi
      (IntOp.cmpi .ne
        (IntOp.cmpi .slt (IntOp.remsi .host w (Scalar.select (IntOp.cmpi .eq c 0#32) 1#32 c)) 0#32)
        (IntOp.cmpi .slt (Scalar.select (IntOp.cmpi .eq c 0#32) 1#32 c) 0#32))
      (IntOp.cmpi .ne (IntOp.remsi .host w (Scalar.select (IntOp.cmpi .eq c 0#32) 1#32 c)) 0#32))
    (IntOp.addi (IntOp.remsi .host w (Scalar.select (IntOp.cmpi .eq c 0#32) 1#32 c))
      (Scalar.select (IntOp.cmpi .eq c 0#32) 1#32 c))
    (IntOp.remsi .host w (Scalar.select (IntOp.cmpi .eq c 0#32) 1#32 c))

/-- Every operation of `floorMod` is elementwise and the divisor is a broadcast scalar constant, so entry `r`
    is the scalar floor remainder of the word `x (ix1 r)`. -/
private theorem floorMod_apply (x : IVec SL 32) (c : BitVec 32) (r : Fin 16384) :
    floorMod x (constantI S0 32 c) (ix1 r) = fmW (x (ix1 r)) c := rfl

/-- The truncated remainder by ten, read as a signed integer, lies strictly between `-10` and `10`. -/
private theorem srem_ten_bounds (w : BitVec 32) :
    -10 < (w.srem 10#32).toInt ∧ (w.srem 10#32).toInt < 10 := by
  have h10 : (10#32 : BitVec 32).toInt = 10 := by decide
  rw [BitVec.toInt_srem, h10]
  exact ⟨Int.lt_tmod_of_pos _ (by omega), Int.tmod_lt_of_pos _ (by omega)⟩

/-- A word whose unsigned value is below ten is one of the ten labels. -/
private theorem exists_label (v : BitVec 32) (h : v.toNat < 10) : ∃ k : Fin 10, v = BitVec.ofNat 32 k.val := by
  refine ⟨⟨v.toNat, h⟩, ?_⟩
  apply BitVec.eq_of_toNat_eq
  rw [BitVec.toNat_ofNat]
  show v.toNat = v.toNat % 2 ^ 32
  omega

/-- The scalar fact: the floor remainder of any word by ten is one of the words `0 … 9`. The truncated remainder
    `t` lies in `(-10, 10)`; when `t` is negative the chain adds ten (no wrap-around: `t + 10` lies in
    `(0, 10)`), otherwise it keeps `t`. -/
private theorem fmW_ten_range (w : BitVec 32) : ∃ k : Fin 10, fmW w 10#32 = BitVec.ofNat 32 k.val := by
  have hk : Scalar.select (IntOp.cmpi .eq (10#32 : BitVec 32) 0#32) (1#32 : BitVec 32) 10#32 = 10#32 := by decide
  have hrem : IntOp.remsi .host w 10#32 = w.srem 10#32 := by
    unfold IntOp.remsi
    rw [if_neg]
    intro h
    rcases h with h | ⟨_, h⟩
    · exact absurd h (by decide)
    · exact absurd h (by decide)
  have hsgn : IntOp.cmpi .slt (10#32 : BitVec 32) 0#32 = 0#1 := by decide
  obtain ⟨hlo, hhi⟩ := srem_ten_bounds w
  unfold fmW
  rw [hk, hrem, hsgn]
  generalize w.srem 10#32 = t at hlo hhi ⊢
  have hcond := BitVec.toInt_eq_toNat_cond t
  have hlt := t.isLt
  have h0 : (0#32 : BitVec 32).toInt = 0 := by decide
  by_cases hneg : t.slt 0#32 = true
  · -- `t` is negative: both tests hold and the result is `t + 10`
    have hti : t.toInt < 0 := by
      have := BitVec.slt_iff_toInt_lt.mp hneg
      omega
    have hne : t ≠ 0#32 := by
      rintro rfl
      exact absurd hti (by decide)
    have c1 : IntOp.cmpi .slt t 0#32 = 1#1 := by
      show BitVec.ofBool (t.slt 0#32) = 1#1
      rw [hneg]; rfl
    have c2 : IntOp.cmpi .ne (1#1 : BitVec 1) 0#1 = 1#1 := by decide
    have c3 : IntOp.cmpi .ne t 0#32 = 1#1 := by
      show BitVec.ofBool (t != 0#32) = 1#1
      rw [bne_iff_ne.mpr hne]; rfl
    have c4 : IntOp.andi (1#1 : BitVec 1) 1#1 = 1#1 := by decide
    rw [c1, c2, c3, c4, select_one]
    apply exists_label
    show (t + 10#32).toNat < 10
    rw [BitVec.toNat_add]
    have h10 : (10#32 : BitVec 32).toNat = 10 := by decide
    rw [h10]
    omega
  · -- `t` is non-negative: the sign test fails and the result is `t`
    have hneg' : t.slt 0#32 = false := by simpa using hneg
    have hti : 0 ≤ t.toInt := by
      have h := (BitVec.slt_iff_toInt_lt (x := t) (y := 0#32)).not.mp hneg
      omega
    have c1 : IntOp.cmpi .slt t 0#32 = 0#1 := by
      show BitVec.ofBool (t.slt 0#32) = 0#1
      rw [hneg']; rfl
    have c2 : IntOp.cmpi .ne (0#1 : BitVec 1) 0#1 = 0#1 := by decide
    have c4 : ∀ b : BitVec 1, IntOp.andi (0#1 : BitVec 1) b = 0#1 := by decide
    rw [c1, c2, c4, select_zero]
    apply exists_label
    omega

/-- Whatever the inputs, every entry of the negative class is a label `0 … 9`: a floor remainder by ten. -/
theorem negChain_range (clss off : IVec SL 32) (r : Fin 16384) :
    ∃ k : Fin 10, negChain clss off (ix1 r) = BitVec.ofNat 32 k.val := by
  unfold negChain
  rw [floorMod_apply]
  exact fmW_ten_range _

end Cert.IntChain

end
-- ==== Proof.Spec.lean ====
/-
  The triplet loss over the reals, written twice: as the reference computes it (per sample, the mean squared
  distance to the positive anchor minus that to the negative anchor, plus the margin; then the mean over samples)
  and as the kernel computes it (the squared norm of the sample cancels, leaving for each of 128 lanes the signed
  selection of `‖a_c‖² − 2 p·a_c`, summed block by block, core by core). The two are one number.
-/
import Mathlib.Algebra.BigOperators.Group.Finset.Basic
import Mathlib.Algebra.BigOperators.Ring.Finset
import Mathlib.Data.Real.Basic
import Mathlib.Tactic.Ring
import Mathlib.Tactic.FieldSimp
import Idealize.ShloMosaic.Lib.ValueIdx

noncomputable section

namespace Cert.Spec

open Idealize.ShloMosaic Idealize.ShloMosaic.ValueIdx

abbrev SPred : Shape := ⟨2, ![16384, 4096]⟩
abbrev SAnch : Shape := ⟨2, ![10, 4096]⟩

/-- Row `c` of the anchor table padded with zero rows to 128 rows. -/
def apad (A : SAnch.Idx → ℝ) (c : Fin 128) (d : Fin 4096) : ℝ :=
  if h : c.val < 10 then A (ix2 (⟨c.val, h⟩ : Fin 10) d) else 0

/-- The sample at row `r'` of row block `i` of core `q`: sixteen blocks of 512 rows to a core. -/
def rowOf (q : Fin 2) (i : Fin 16) (r' : Fin 512) : Fin 16384 :=
  ⟨(q.val * 16 + i.val) * 512 + r'.val, by have := q.isLt; have := i.isLt; have := r'.isLt; omega⟩

/-- What one grid point adds to lane `c` of its core's accumulator row. -/
def part (P : SPred.Idx → ℝ) (A : SAnch.Idx → ℝ) (pos neg : Fin 16384 → Fin 10) (q : Fin 2) (i : Fin 16)
    (c : Fin 128) : ℝ :=
  (∑ r' : Fin 512,
      ((if c.val = (pos (rowOf q i r')).val then (1 : ℝ) else 0) - (if c.val = (neg (rowOf q i r')).val then (1 : ℝ) else 0))
        * ((∑ d : Fin 4096, apad A c d * apad A c d) - 2 * ∑ d : Fin 4096, P (ix2 (rowOf q i r') d) * apad A c d))
    * (1 / 4096)

/-- The kernel's loss: the two cores' accumulator rows summed over lanes and cores, over the batch, plus the margin. -/
def kerLoss (P : SPred.Idx → ℝ) (A : SAnch.Idx → ℝ) (pos neg : Fin 16384 → Fin 10) (mg : ℝ) : ℝ :=
  (∑ q : Fin 2, ∑ c : Fin 128, ∑ i : Fin 16, part P A pos neg q i c) / 16384 + mg

/-- The reference's loss. -/
def refLoss (P : SPred.Idx → ℝ) (A : SAnch.Idx → ℝ) (pos neg : Fin 16384 → Fin 10) (mg : ℝ) : ℝ :=
  (∑ r : Fin 16384,
      ((∑ d : Fin 4096, (P (ix2 r d) - A (ix2 (pos r) d)) * (P (ix2 r d) - A (ix2 (pos r) d))) / 4096
        - (∑ d : Fin 4096, (P (ix2 r d) - A (ix2 (neg r) d)) * (P (ix2 r d) - A (ix2 (neg r) d))) / 4096 + mg)) / 16384

/-! ### Re-indexing the samples -/

/-- The triple (core, block, row in the block) ↦ sample is a bijection onto the 16384 samples:
    `row = (16 q + i) · 512 + r'`, with inverse `r ↦ (r / 8192, (r / 512) % 16, r % 512)`. -/
def rowEquiv : (Fin 2 × Fin 16) × Fin 512 ≃ Fin 16384 where
  toFun x := rowOf x.1.1 x.1.2 x.2
  invFun r :=
    ((⟨r.val / 8192, by have := r.isLt; omega⟩, ⟨(r.val / 512) % 16, by omega⟩), ⟨r.val % 512, by omega⟩)
  left_inv := by
    rintro ⟨⟨q, i⟩, r'⟩
    have := q.isLt; have := i.isLt; have := r'.isLt
    refine Prod.ext (Prod.ext (Fin.ext ?_) (Fin.ext ?_)) (Fin.ext ?_) <;> dsimp only [rowOf] <;> omega
  right_inv := by
    intro r
    have := r.isLt
    refine Fin.ext ?_
    dsimp only [rowOf]
    omega

/-- A sum over cores, blocks and rows of a block is the sum over all samples. -/
theorem sum_rowOf (F : Fin 16384 → ℝ) :
    ∑ q : Fin 2, ∑ i : Fin 16, ∑ r' : Fin 512, F (rowOf q i r') = ∑ r : Fin 16384, F r := by
  rw [← Equiv.sum_comp rowEquiv F, Fintype.sum_prod_type, Fintype.sum_prod_type]
  rfl

/-! ### One sample, all lanes -/

/-- What sample `r` adds once its 128 lanes are summed. -/
def perRow (P : SPred.Idx → ℝ) (A : SAnch.Idx → ℝ) (pos neg : Fin 16384 → Fin 10) (r : Fin 16384) : ℝ :=
  (∑ c : Fin 128,
      ((if c.val = (pos r).val then (1 : ℝ) else 0) - (if c.val = (neg r).val then (1 : ℝ) else 0))
        * ((∑ d : Fin 4096, apad A c d * apad A c d) - 2 * ∑ d : Fin 4096, P (ix2 r d) * apad A c d))
    * (1 / 4096)

/-- Summing one grid point's contribution over the lanes: the lane sum and the row sum commute. -/
theorem sum_lanes_part (P : SPred.Idx → ℝ) (A : SAnch.Idx → ℝ) (pos neg : Fin 16384 → Fin 10) (q : Fin 2)
    (i : Fin 16) :
    ∑ c : Fin 128, part P A pos neg q i c = ∑ r' : Fin 512, perRow P A pos neg (rowOf q i r') := by
  unfold part perRow
  rw [← Finset.sum_mul, ← Finset.sum_mul, Finset.sum_comm]

/-- The kernel's triple sum of grid-point contributions is the sum over samples of `perRow`. -/
theorem sum_part_eq (P : SPred.Idx → ℝ) (A : SAnch.Idx → ℝ) (pos neg : Fin 16384 → Fin 10) :
    ∑ q : Fin 2, ∑ c : Fin 128, ∑ i : Fin 16, part P A pos neg q i c
      = ∑ r : Fin 16384, perRow P A pos neg r := by
  rw [← sum_rowOf]
  refine Finset.sum_congr rfl (fun q _ => ?_)
  rw [Finset.sum_comm]
  exact Finset.sum_congr rfl (fun i _ => sum_lanes_part P A pos neg q i)

/-! ### Selecting the two labelled lanes -/

/-- The lane that carries label `k`: labels are below 10, lanes below 128. -/
def lane (k : Fin 10) : Fin 128 := ⟨k.val, by have := k.isLt; omega⟩

/-- On a label's lane the padded table is the table's own row. -/
theorem apad_lane (A : SAnch.Idx → ℝ) (k : Fin 10) (d : Fin 4096) : apad A (lane k) d = A (ix2 k d) := by
  unfold apad lane
  rw [dif_pos k.isLt]

/-- An indicator of one label's lane selects that lane's term of a sum over the lanes. -/
theorem sum_sel (k : Fin 10) (g : Fin 128 → ℝ) :
    ∑ c : Fin 128, (if c.val = k.val then (1 : ℝ) else 0) * g c = g (lane k) := by
  rw [Finset.sum_eq_single (lane k)]
  · rw [if_pos (show (lane k).val = k.val from rfl), one_mul]
  · intro c _ hc
    have hne : c.val ≠ k.val := fun h => hc (Fin.ext h)
    rw [if_neg hne, zero_mul]
  · intro h
    exact absurd (Finset.mem_univ _) h

/-- The signed selection: plus the positive label's lane, minus the negative label's lane. -/
theorem sum_sel_sub (k l : Fin 10) (g : Fin 128 → ℝ) :
    ∑ c : Fin 128,
        ((if c.val = k.val then (1 : ℝ) else 0) - (if c.val = l.val then (1 : ℝ) else 0)) * g c
      = g (lane k) - g (lane l) := by
  rw [← sum_sel k g, ← sum_sel l g, ← Finset.sum_sub_distrib]
  exact Finset.sum_congr rfl (fun c _ => sub_mul _ _ _)

/-! ### The squared norm of the sample cancels -/

/-- `Σ (p − x)² = Σ p² + (Σ x² − 2 Σ p x)`. -/
theorem sum_sq_sub {ι : Type} [Fintype ι] (p x : ι → ℝ) :
    ∑ d, (p d - x d) * (p d - x d) = (∑ d, p d * p d) + ((∑ d, x d * x d) - 2 * ∑ d, p d * x d) := by
  rw [Finset.mul_sum, ← Finset.sum_sub_distrib, ← Finset.sum_add_distrib]
  exact Finset.sum_congr rfl (fun d _ => by ring)

/-- The difference of the two lanes' `‖a‖² − 2 p·a`, scaled, is the difference of the two mean squared distances. -/
theorem sq_dist_diff {ι : Type} [Fintype ι] (p a b : ι → ℝ) :
    (((∑ d, a d * a d) - 2 * ∑ d, p d * a d) - ((∑ d, b d * b d) - 2 * ∑ d, p d * b d)) * (1 / 4096)
      = (∑ d, (p d - a d) * (p d - a d)) / 4096 - (∑ d, (p d - b d) * (p d - b d)) / 4096 := by
  rw [sum_sq_sub p a, sum_sq_sub p b]
  ring

/-- One sample's contribution is its mean squared distance to the positive anchor minus that to the negative. -/
theorem perRow_eq (P : SPred.Idx → ℝ) (A : SAnch.Idx → ℝ) (pos neg : Fin 16384 → Fin 10) (r : Fin 16384) :
    perRow P A pos neg r
      = (∑ d : Fin 4096, (P (ix2 r d) - A (ix2 (pos r) d)) * (P (ix2 r d) - A (ix2 (pos r) d))) / 4096
        - (∑ d : Fin 4096, (P (ix2 r d) - A (ix2 (neg r) d)) * (P (ix2 r d) - A (ix2 (neg r) d))) / 4096 := by
  unfold perRow
  rw [sum_sel_sub (pos r) (neg r)
    (fun c => (∑ d : Fin 4096, apad A c d * apad A c d) - 2 * ∑ d : Fin 4096, P (ix2 r d) * apad A c d)]
  simp only [apad_lane]
  exact sq_dist_diff (fun d => P (ix2 r d)) (fun d => A (ix2 (pos r) d)) (fun d => A (ix2 (neg r) d))

/-! ### The margin leaves the mean -/

/-- The mean over the 16384 samples of `x r + mg` is the mean of `x` plus `mg`. -/
theorem mean_add_const (x : Fin 16384 → ℝ) (mg : ℝ) :
    (∑ r : Fin 16384, (x r + mg)) / 16384 = (∑ r : Fin 16384, x r) / 16384 + mg := by
  rw [Finset.sum_add_distrib, Finset.sum_const, Finset.card_univ, Fintype.card_fin, nsmul_eq_mul]
  push_cast
  ring

/-- The two losses are one real number. -/
theorem kerLoss_eq_refLoss (P : SPred.Idx → ℝ) (A : SAnch.Idx → ℝ) (pos neg : Fin 16384 → Fin 10) (mg : ℝ) :
    kerLoss P A pos neg mg = refLoss P A pos neg mg := by
  unfold kerLoss refLoss
  rw [sum_part_eq, mean_add_const]
  simp only [perRow_eq]

end Cert.Spec

end
-- ==== Proof.KerHost.lean ====
/-
  What the kernel's windows find in their arrays: the host operations before the region, read at an index at the
  ideal instance. The samples are the first argument as launched; the positive labels are the label argument as
  a column; the negative labels are the shared integer chain as a column; the anchor table arrives padded with
  zero rows to 128 and transposed (its narrowing to bf16 is the identity here); and the squared norms are the row
  sums of the padded table's squares.
-/
import proofs.«407653_j73632919323010_3_alg».proof.Proof.Gen.KernelIdeal.Frame
import proofs.«407653_j73632919323010_3_alg».proof.Proof.IntChain
import proofs.«407653_j73632919323010_3_alg».proof.Proof.Spec
import Idealize.ShloMosaic.PureOps.Ideal.Laws
import Idealize.ShloMosaic.Lib.Pipeline.Value
import Idealize.ShloMosaic.Lib.StableHlo.Run
import Idealize.ShloMosaic.Lib.ValueIdx
import Idealize.ShloMosaic.Lib.ValueLayout
import Idealize.ShloMosaic.Lib.KernelVsHost
import Idealize.ShloMosaic.Lib.IdealHost

noncomputable section

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## Each array as the host operations' composed term, and the terms read at an index -/

/-- A 16384-vector as a one-column array reads the vector. -/
private theorem reshape_col {α : Type} (x : S16384.Idx → α) (h : S16384.ShapeCasts S16384x1) (r : Fin 16384) :
    shapeCast S16384x1 x h (ix2 r (0 : Fin 1)) = x (ix1 r) :=
  shapeCast_apply x h _ _ (by rw [Shape.rowMajor_val_one, Shape.rowMajor_val_two]; show r.val = r.val * 1 + 0; omega)

/-- The positive labels' window finds the label argument as a column. -/
private theorem e_pos (c : Dev nD) :
    (V m c main_v5 : S16384x1.Idx → BitVec 32)
      = shapeCast S16384x1 (m ((c : Thread nD τ).loc main_arg2) : S16384.Idx → BitVec 32) shapeCasts_S16384_S16384x1 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  open StableHlo in after_results
  rfl

/-- The negative labels' window finds the shared integer chain as a column: the host's operations composed are the
    chain's definition, the values passed into and out of the two remainder functions unchanged. -/
private theorem e_neg (c : Dev nD) :
    (V m c main_v6 : S16384x1.Idx → BitVec 32)
      = shapeCast S16384x1 (Cert.IntChain.negChain (m ((c : Thread nD τ).loc main_arg2)) (m ((c : Thread nD τ).loc main_arg3)))
          shapeCasts_S16384_S16384x1 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  open StableHlo in after_results_simp
  simp only [StableHlo.TRef.toBuf, StableHlo.TRef.ofBuf, cast_cast, cast_eq]
  unfold Cert.IntChain.negChain Cert.IntChain.floorMod
  rfl

/-- A real-valued finite sum, coerced, is the sum of the coercions. -/
private theorem coe_sum_fin {n : ℕ} (f : Fin n → ℝ) : ((∑ i, f i : ℝ) : EReal) = ∑ i, ((f i : ℝ) : EReal) := by
  have h : ∀ s : Finset (Fin n), ((∑ i ∈ s, f i : ℝ) : EReal) = ∑ i ∈ s, ((f i : ℝ) : EReal) := by
    intro s
    induction s using Finset.induction_on with
    | empty => simp
    | insert a s ha ih => rw [Finset.sum_insert ha, Finset.sum_insert ha, EReal.coe_add, ih]
  exact h Finset.univ

/-- The anchor table padded with zero rows to 128 rows, as the host builds it: the padding value is the integer zero
    converted. -/
private def padT (x : S10x4096.Idx → EReal) : S128x4096.Idx → EReal :=
  pad S128x4096 ![0, 0] ![118, 0] ![0, 0] (x : FVec Ideal S10x4096 .f32)
    (sitofp (F := Ideal) .f32 (constantI S_ 32 0#32)) pads_S10x4096_S128x4096_01180_000 h_S_

/-- Read at row `k`, column `d`: the table's row for the first ten rows, zero below. -/
private theorem padT_apply (A : Cert.Spec.SAnch.Idx → ℝ) (k : Fin 128) (d : Fin 4096) :
    padT (fun i => ((A i : ℝ) : EReal)) (ix2 k d) = ((Cert.Spec.apad A k d : ℝ) : EReal) := by
  unfold padT Cert.Spec.apad
  by_cases hk : k.val < 10
  · rw [dif_pos hk]
    exact pad_apply_of_inside (s := S10x4096) (t := S128x4096) _ _ _ _ _ _ _ (ix2 k d) (ix2 (⟨k.val, hk⟩ : Fin 10) d) (fun a => by
      match a with
      | ⟨0, _⟩ => show k.val = 0 + k.val * (0 + 1); omega
      | ⟨1, _⟩ => show d.val = 0 + d.val * (0 + 1); omega)
  · rw [dif_neg hk]
    rw [pad_apply_of_not_inside (s := S10x4096) (t := S128x4096) _ _ _ _ _ _ _ (ix2 k d) (0 : Fin 2) (by
      show ¬(0 ≤ k.val ∧ (k.val - 0) % (0 + 1) = 0 ∧ (k.val - 0) / (0 + 1) < 10)
      omega)]
    show ((((0#32 : BitVec 32).toInt : ℝ)) : EReal) = ((0 : ℝ) : EReal)
    simp

/-- The transposed table read at `(d, k)` is the table at `(k, d)`. -/
private theorem transpose_T_apply {α : Type} (x : S128x4096.Idx → α) (h : S128x4096.Transposes [1, 0] S4096x128) (d : Fin 4096) (k : Fin 128) :
    transpose S4096x128 [1, 0] x h (ix2 d k) = x (ix2 k d) :=
  transpose_apply [1, 0] x h (ix2 d k) (ix2 k d) (fun b => by
    match b with
    | ⟨0, _⟩ => rfl
    | ⟨1, _⟩ => rfl)

/-- A 128-vector as a one-row array reads the vector. -/
private theorem reshape_row {α : Type} (x : S128.Idx → α) (h : S128.ShapeCasts S1x128) (k : Fin 128) :
    shapeCast S1x128 x h (ix2 (0 : Fin 1) k) = x (ix1 k) :=
  shapeCast_a_1a_apply x h 0 k

/-- The host's row sums of squares, from the zero word, read at row `k`. -/
private theorem rowsum_apply (x : S128x4096.Idx → EReal) (k : Fin 128) :
    (Host.reduceAdd (F := Ideal) (mulf (x : FVec Ideal S128x4096 .f32) x) (constant (F := Ideal) S_ .f32 0x00000000#32)
        reducesTo_S128x4096_S128_d1 h_S_ : S128.Idx → EReal) (ix1 k)
      = ∑ d : Fin 4096, x (ix2 k d) * x (ix2 k d) := by
  rw [hostReduceAdd_apply, Ideal.hostReduceAdd_single reducesTo_S128x4096_S128_d1 (by decide : S128x4096.Reduces [1] S128)]
  rw [constant_apply, Ideal.ofBits_zero_f32, zero_add]
  show ∑ d : Fin 4096, _ = _
  refine Finset.sum_congr rfl fun d _ => ?_
  rw [mulf_apply]
  have e : (Shape.Reduces.lift (by decide : S128x4096.Reduces [1] S128) (ix1 k) d) = ix2 k d := by
    funext a
    match a with
    | ⟨0, _⟩ => rfl
    | ⟨1, _⟩ => rfl
  rw [e]

/-- The anchor window finds the padded table transposed, its narrowing the identity on extended reals. -/
private theorem e_aT (c : Dev nD) :
    (V m c main_v9 : S4096x128.Idx → EReal)
      = truncf (F := Ideal) .bf16
          (transpose S4096x128 [1, 0] (padT (m ((c : Thread nD τ).loc main_arg1)) : FVec Ideal S128x4096 .f32)
            transposes_S128x4096_S4096x128_1_0) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  open StableHlo in after_results_simp
  rfl

/-- The norms' window finds the row sums of the padded table's squares as a row. -/
private theorem e_an (c : Dev nD) :
    (V m c main_v12 : S1x128.Idx → EReal)
      = shapeCast S1x128
          (Host.reduceAdd (F := Ideal)
            (mulf (padT (m ((c : Thread nD τ).loc main_arg1)) : FVec Ideal S128x4096 .f32) (padT (m ((c : Thread nD τ).loc main_arg1))))
            (constant (F := Ideal) S_ .f32 0x00000000#32) reducesTo_S128x4096_S128_d1 h_S_ : S128.Idx → EReal)
          shapeCasts_S128_S1x128 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  open StableHlo in after_results_simp
  rfl

/-! ## What the windows find -/

theorem V_pos (c : Dev nD) (r : Fin 16384) :
    V m c main_v5 (ix2 r (0 : Fin 1)) = m ((c : Thread nD τ).loc main_arg2) (ix1 r) := by
  rw [e_pos]
  exact reshape_col _ _ r

theorem V_neg (c : Dev nD) (r : Fin 16384) :
    V m c main_v6 (ix2 r (0 : Fin 1))
      = Cert.IntChain.negChain (m ((c : Thread nD τ).loc main_arg2)) (m ((c : Thread nD τ).loc main_arg3)) (ix1 r) := by
  rw [e_neg]
  exact reshape_col _ _ r

theorem V_aT_real (c : Dev nD) (A : Cert.Spec.SAnch.Idx → ℝ)
    (hA : m ((c : Thread nD τ).loc main_arg1) = fun i => ((A i : ℝ) : EReal)) (d : Fin 4096) (k : Fin 128) :
    V m c main_v9 (ix2 d k) = ((Cert.Spec.apad A k d : ℝ) : EReal) := by
  show (V m c main_v9 : S4096x128.Idx → EReal) (ix2 d k) = (_ : EReal)
  rw [e_aT, hA, truncf_apply, transpose_T_apply, padT_apply]

theorem V_an_real (c : Dev nD) (A : Cert.Spec.SAnch.Idx → ℝ)
    (hA : m ((c : Thread nD τ).loc main_arg1) = fun i => ((A i : ℝ) : EReal)) (k : Fin 128) :
    V m c main_v12 (ix2 (0 : Fin 1) k)
      = ((∑ d : Fin 4096, Cert.Spec.apad A k d * Cert.Spec.apad A k d : ℝ) : EReal) := by
  have e : @Eq EReal (V m c main_v12 (ix2 (0 : Fin 1) k))
      (∑ d : Fin 4096, ((Cert.Spec.apad A k d * Cert.Spec.apad A k d : ℝ) : EReal)) := by
    rw [e_an, hA, reshape_row, rowsum_apply]
    refine Finset.sum_congr rfl fun d _ => ?_
    rw [padT_apply, EReal.coe_mul]
  exact e.trans (coe_sum_fin _).symm

end Cert.KernelIdeal.KV

end
-- ==== Proof.KerAccum.lean ====
/-
  The accumulation across the grid and the result array of the region. Core `q` visits its sixteen row blocks
  in order with one 8×128 output block that stays in place: after block `i` its top row holds, lane by lane, the
  sum of the contributions of blocks `0 … i`, and its other rows hold zero. The block is written back once, after
  the sixteenth, to rows `8q … 8q+7` of the 16×128 result: so the result array has the two cores' sums in rows 0 and
  8 and zeros elsewhere.
-/
import proofs.«407653_j73632919323010_3_alg».proof.Proof.KerPieces
import proofs.«407653_j73632919323010_3_alg».proof.Proof.KerPayload
import proofs.«407653_j73632919323010_3_alg».proof.Proof.KerHost

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

namespace Acc

/-- The sample block of a grid point. -/
abbrev pblk (c : Dev nD) (t : Fin cfg0.N) : Vec Ideal S512x4096 .f32 := iblk m c 0 t
/-- The positive-label block of a grid point. -/
abbrev psblk (c : Dev nD) (t : Fin cfg0.N) : Vec Ideal S512x1 .i32 := iblk m c 1 t
/-- The negative-label block of a grid point. -/
abbrev nsblk (c : Dev nD) (t : Fin cfg0.N) : Vec Ideal S512x1 .i32 := iblk m c 2 t
/-- The anchor table's block (the whole table) at a grid point. -/
abbrev ablk (c : Dev nD) (t : Fin cfg0.N) : Vec Ideal S4096x128 .bf16 := iblk m c 3 t
/-- The norms' block (the whole row) at a grid point. -/
abbrev anblk (c : Dev nD) (t : Fin cfg0.N) : Vec Ideal S1x128 .f32 := iblk m c 4 t

theorem lt32 (t : Fin cfg0.N) : t.val < 32 := lt_of_lt_of_eq t.isLt (show cfg0.N = 32 from N_0)

/-- The core of a grid point. -/
def qOf (t : Fin cfg0.N) : Fin 2 := ⟨t.val / 16, by have := lt32 t; omega⟩
/-- The row block, within its core, of a grid point. -/
def iOf (t : Fin cfg0.N) : Fin 16 := ⟨t.val % 16, Nat.mod_lt _ (by decide)⟩

theorem rowOf_val (t : Fin cfg0.N) (r : Fin 512) : (Cert.Spec.rowOf (qOf t) (iOf t) r).val = 512 * t.val + r.val := by
  show (t.val / 16 * 16 + t.val % 16) * 512 + r.val = _
  omega

theorem idx0 : ∀ t : Fin cfg0.N, win0_0.index t (0 : Fin 2) = t.val ∧ win0_0.index t 1 = 0 :=
  (by decide +kernel : ∀ t : Fin grid0.N, win0_0.index t (0 : Fin 2) = t.val ∧ win0_0.index t 1 = 0)
theorem idx1 : ∀ t : Fin cfg0.N, win0_1.index t (0 : Fin 2) = t.val ∧ win0_1.index t 1 = 0 :=
  (by decide +kernel : ∀ t : Fin grid0.N, win0_1.index t (0 : Fin 2) = t.val ∧ win0_1.index t 1 = 0)
theorem idx2 : ∀ t : Fin cfg0.N, win0_2.index t (0 : Fin 2) = t.val ∧ win0_2.index t 1 = 0 :=
  (by decide +kernel : ∀ t : Fin grid0.N, win0_2.index t (0 : Fin 2) = t.val ∧ win0_2.index t 1 = 0)
theorem idx3 : ∀ t : Fin cfg0.N, win0_3.index t (0 : Fin 2) = 0 ∧ win0_3.index t 1 = 0 :=
  (by decide +kernel : ∀ t : Fin grid0.N, win0_3.index t (0 : Fin 2) = 0 ∧ win0_3.index t 1 = 0)
theorem idx4 : ∀ t : Fin cfg0.N, win0_4.index t (0 : Fin 2) = 0 ∧ win0_4.index t 1 = 0 :=
  (by decide +kernel : ∀ t : Fin grid0.N, win0_4.index t (0 : Fin 2) = 0 ∧ win0_4.index t 1 = 0)
theorem idx5 : ∀ t : Fin cfg0.N, win0_5.index t (0 : Fin 2) = t.val / 16 ∧ win0_5.index t 1 = 0 :=
  (by decide +kernel : ∀ t : Fin grid0.N, win0_5.index t (0 : Fin 2) = t.val / 16 ∧ win0_5.index t 1 = 0)

/-- The sample block at a point reads the sample array at the point's rows. -/
theorem pblk_apply (c : Dev nD) (t : Fin cfg0.N) (r : Fin 512) (d : Fin 4096) :
    pblk m c t (ix2 r d) = V m c main_arg0 (ix2 (Cert.Spec.rowOf (qOf t) (iOf t) r) d) := by
  unfold pblk iblk
  rw [View.read_apply]
  show V m c main_arg0 _ = V m c main_arg0 _
  congr 1
  funext a
  apply Fin.ext
  match a with
  | ⟨0, _⟩ => show win0_0.index t 0 * 512 + 1 * r.val = (Cert.Spec.rowOf (qOf t) (iOf t) r).val; rw [(idx0 t).1, rowOf_val]; omega
  | ⟨1, _⟩ => show win0_0.index t 1 * 4096 + 1 * d.val = d.val; rw [(idx0 t).2]; omega

/-- The positive-label block at a point reads the label column at the point's rows. -/
theorem psblk_apply (c : Dev nD) (t : Fin cfg0.N) (r : Fin 512) :
    psblk m c t (ix2 r (0 : Fin 1)) = V m c main_v5 (ix2 (Cert.Spec.rowOf (qOf t) (iOf t) r) (0 : Fin 1)) := by
  unfold psblk iblk
  rw [View.read_apply]
  show V m c main_v5 _ = V m c main_v5 _
  congr 1
  funext a
  apply Fin.ext
  match a with
  | ⟨0, _⟩ => show win0_1.index t 0 * 512 + 1 * r.val = (Cert.Spec.rowOf (qOf t) (iOf t) r).val; rw [(idx1 t).1, rowOf_val]; omega
  | ⟨1, _⟩ => show win0_1.index t 1 * 1 + 1 * 0 = 0; rw [(idx1 t).2]

/-- The negative-label block at a point reads the label column at the point's rows. -/
theorem nsblk_apply (c : Dev nD) (t : Fin cfg0.N) (r : Fin 512) :
    nsblk m c t (ix2 r (0 : Fin 1)) = V m c main_v6 (ix2 (Cert.Spec.rowOf (qOf t) (iOf t) r) (0 : Fin 1)) := by
  unfold nsblk iblk
  rw [View.read_apply]
  show V m c main_v6 _ = V m c main_v6 _
  congr 1
  funext a
  apply Fin.ext
  match a with
  | ⟨0, _⟩ => show win0_2.index t 0 * 512 + 1 * r.val = (Cert.Spec.rowOf (qOf t) (iOf t) r).val; rw [(idx2 t).1, rowOf_val]; omega
  | ⟨1, _⟩ => show win0_2.index t 1 * 1 + 1 * 0 = 0; rw [(idx2 t).2]

/-- The anchor table's block at any point is the whole table. -/
theorem ablk_apply (c : Dev nD) (t : Fin cfg0.N) (d : Fin 4096) (k : Fin 128) :
    ablk m c t (ix2 d k) = V m c main_v9 (ix2 d k) := by
  unfold ablk iblk
  rw [View.read_apply]
  show V m c main_v9 _ = V m c main_v9 _
  congr 1
  funext a
  apply Fin.ext
  match a with
  | ⟨0, _⟩ => show win0_3.index t 0 * 4096 + 1 * d.val = d.val; rw [(idx3 t).1]; omega
  | ⟨1, _⟩ => show win0_3.index t 1 * 128 + 1 * k.val = k.val; rw [(idx3 t).2]; omega

/-- The norms' block at any point is the whole row. -/
theorem anblk_apply (c : Dev nD) (t : Fin cfg0.N) (k : Fin 128) :
    anblk m c t (ix2 (0 : Fin 1) k) = V m c main_v12 (ix2 (0 : Fin 1) k) := by
  unfold anblk iblk
  rw [View.read_apply]
  show V m c main_v12 _ = V m c main_v12 _
  congr 1
  funext a
  apply Fin.ext
  match a with
  | ⟨0, _⟩ => show win0_4.index t 0 * 1 + 1 * 0 = 0; rw [(idx4 t).1]
  | ⟨1, _⟩ => show win0_4.index t 1 * 128 + 1 * k.val = k.val; rw [(idx4 t).2]; omega

/-- The body's arithmetic at a point, over a real row: the row plus the point's contribution. -/
theorem pay2_point (c : Dev nD) (P : Cert.Spec.SPred.Idx → ℝ) (A : Cert.Spec.SAnch.Idx → ℝ) (pos neg : Fin 16384 → Fin 10)
    (hP : m ((c : Thread nD τ).loc main_arg0) = fun i => ((P i : ℝ) : EReal))
    (hA : m ((c : Thread nD τ).loc main_arg1) = fun i => ((A i : ℝ) : EReal))
    (hpos : ∀ r : Fin 16384, m ((c : Thread nD τ).loc main_arg2) (ix1 r) = BitVec.ofNat 32 (pos r).val)
    (hneg : ∀ r : Fin 16384, Cert.IntChain.negChain (m ((c : Thread nD τ).loc main_arg2))
        (m ((c : Thread nD τ).loc main_arg3)) (ix1 r) = BitVec.ofNat 32 (neg r).val)
    (t : Fin cfg0.N) (xo : Vec Ideal S1x128 .f32) (o : Fin 128 → ℝ)
    (ho : ∀ k, xo (ix2 (0 : Fin 1) k) = ((o k : ℝ) : EReal)) (k : Fin 128) :
    k0_pay2 (F := Ideal) (pblk m c t) (ablk m c t) (psblk m c t) (nsblk m c t) (anblk m c t) xo (ix2 (0 : Fin 1) k)
      = ((o k + Cert.Spec.part P A pos neg (qOf t) (iOf t) k : ℝ) : EReal) := by
  refine (pay2_real (pblk m c t) (ablk m c t) (psblk m c t) (nsblk m c t) (anblk m c t) xo
    (fun r d => P (ix2 (Cert.Spec.rowOf (qOf t) (iOf t) r) d)) (fun k d => Cert.Spec.apad A k d)
    (fun k => ∑ d : Fin 4096, Cert.Spec.apad A k d * Cert.Spec.apad A k d) o
    (fun r => pos (Cert.Spec.rowOf (qOf t) (iOf t) r)) (fun r => neg (Cert.Spec.rowOf (qOf t) (iOf t) r))
    ?_ ?_ ?_ ?_ ?_ ho k).trans ?_
  · intro r d
    exact (pblk_apply m c t r d).trans (congrFun ((V_main_arg0 m c).trans hP) _)
  · intro d k
    exact (ablk_apply m c t d k).trans (V_aT_real m c A hA d k)
  · intro r
    exact (psblk_apply m c t r).trans ((V_pos m c _).trans (hpos _))
  · intro r
    exact (nsblk_apply m c t r).trans ((V_neg m c _).trans (hneg _))
  · intro k
    exact (anblk_apply m c t k).trans (V_an_real m c A hA k)
  · rfl

/-- A sum over the blocks up to block `j` is the sum over the blocks before `j` plus block `j`'s term. -/
theorem sum_le_split (f : Fin 16 → ℝ) (j : Fin 16) :
    (∑ i : Fin 16, if i.val ≤ j.val then f i else 0) = (∑ i : Fin 16, if i.val < j.val then f i else 0) + f j := by
  have h : ∀ i : Fin 16, (if i.val ≤ j.val then f i else 0)
      = (if i.val < j.val then f i else 0) + (if i = j then f i else 0) := by
    intro i
    by_cases h1 : i.val < j.val
    · have h2 : i ≠ j := fun e => by rw [e] at h1; exact lt_irrefl _ h1
      rw [if_pos (le_of_lt h1), if_pos h1, if_neg h2, add_zero]
    · by_cases h2 : i = j
      · subst h2; rw [if_pos (le_refl _), if_neg h1, if_pos rfl, zero_add]
      · have h3 : ¬ i.val ≤ j.val := fun h => h2 (Fin.ext (by omega))
        rw [if_neg h3, if_neg h1, if_neg h2, add_zero]
  rw [Finset.sum_congr rfl (fun i _ => h i), Finset.sum_add_distrib, Finset.sum_ite_eq', if_pos (Finset.mem_univ _)]

/-- Before a core's first block the sum is empty. -/
theorem sum_lt_zero (f : Fin 16 → ℝ) (j : Fin 16) (hj : j.val = 0) :
    (∑ i : Fin 16, if i.val < j.val then f i else 0) = 0 :=
  Finset.sum_eq_zero fun i _ => if_neg (by omega)

/-- Core `q`'s accumulated row after its blocks `0 … j`, lane `k`. -/
def accRow (P : Cert.Spec.SPred.Idx → ℝ) (A : Cert.Spec.SAnch.Idx → ℝ) (pos neg : Fin 16384 → Fin 10) (q : Fin 2) (j : ℕ)
    (k : Fin 128) : ℝ :=
  ∑ i : Fin 16, if i.val ≤ j then Cert.Spec.part P A pos neg q i k else 0

section Inv

variable (c : Dev nD) (P : Cert.Spec.SPred.Idx → ℝ) (A : Cert.Spec.SAnch.Idx → ℝ) (pos neg : Fin 16384 → Fin 10)
    (hP : m ((c : Thread nD τ).loc main_arg0) = fun i => ((P i : ℝ) : EReal))
    (hA : m ((c : Thread nD τ).loc main_arg1) = fun i => ((A i : ℝ) : EReal))
    (hpos : ∀ r : Fin 16384, m ((c : Thread nD τ).loc main_arg2) (ix1 r) = BitVec.ofNat 32 (pos r).val)
    (hneg : ∀ r : Fin 16384, Cert.IntChain.negChain (m ((c : Thread nD τ).loc main_arg2))
        (m ((c : Thread nD τ).loc main_arg3)) (ix1 r) = BitVec.ofNat 32 (neg r).val)

/-- The cleared block's top row reads zero in every lane. -/
theorem zeroRow_apply (k : Fin 128) :
    oldRow (F := Ideal) (k0_pay1 (F := Ideal)) (ix2 (0 : Fin 1) k) = (((fun _ => 0 : Fin 128 → ℝ) k : ℝ) : EReal) :=
  (oldRow_apply (F := Ideal) (k0_pay1 (F := Ideal)) k).trans (pay1_apply (0 : Fin 8) k)

include hP hA hpos hneg

/-- A core's first block: the top row is the block's contribution, the other rows are zero. -/
theorem outsAt_A (t : Fin cfg0.N) (h0 : t.val % 16 = 0) (ρ : Fin 8) (k : Fin 128) :
    outsAt0 m c t.val t.isLt (ix2 ρ k)
      = ((if ρ.val = 0 then 0 + Cert.Spec.part P A pos neg (qOf t) (iOf t) k else 0 : ℝ) : EReal) := by
  rw [outsAt0_A m c t h0]
  refine (out_A_apply c (grid0.coords t) (ms0_0 t) (hs0_0 t) (ms0_1 t) (hs0_1 t) (ms0_2 t) (hs0_2 t) (ms0_3 t) (hs0_3 t)
    (ms0_4 t) (hs0_4 t) (ms0_5 t) (hs0_5 t) ((hcond0_0 t).mpr h0) (pblk m c t) (psblk m c t) (nsblk m c t) (ablk m c t)
    (anblk m c t) ρ k).trans ?_
  by_cases hρ : ρ.val = 0
  · rw [if_pos hρ, if_pos hρ]
    exact pay2_point m c P A pos neg hP hA hpos hneg t (oldRow (F := Ideal) (k0_pay1 (F := Ideal))) (fun _ => 0)
      zeroRow_apply k
  · rw [if_neg hρ, if_neg hρ]
    exact pay1_apply ρ k

/-- A later block: the top row gains the block's contribution, the other rows stay. -/
theorem outsAt_B (t : Fin cfg0.N) (h0 : ¬t.val % 16 = 0) (o : Fin 128 → ℝ)
    (ih : ∀ (ρ : Fin 8) (k : Fin 128), outsAt0 m c (t.val - 1) (Nat.lt_of_le_of_lt (Nat.sub_le _ _) t.isLt) (ix2 ρ k)
      = ((if ρ.val = 0 then o k else 0 : ℝ) : EReal)) (ρ : Fin 8) (k : Fin 128) :
    outsAt0 m c t.val t.isLt (ix2 ρ k)
      = ((if ρ.val = 0 then o k + Cert.Spec.part P A pos neg (qOf t) (iOf t) k else 0 : ℝ) : EReal) := by
  rw [outsAt0_B m c t h0]
  refine (out_B_apply c (grid0.coords t) (ms0_0 t) (hs0_0 t) (ms0_1 t) (hs0_1 t) (ms0_2 t) (hs0_2 t) (ms0_3 t) (hs0_3 t)
    (ms0_4 t) (hs0_4 t) (ms0_5 t) (hs0_5 t) (fun h => h0 ((hcond0_0 t).mp h)) (pblk m c t) (psblk m c t) (nsblk m c t)
    (ablk m c t) (anblk m c t) (outsAt0 m c (t.val - 1) (Nat.lt_of_le_of_lt (Nat.sub_le _ _) t.isLt)) ρ k).trans ?_
  by_cases hρ : ρ.val = 0
  · rw [if_pos hρ, if_pos hρ]
    have ho : ∀ k : Fin 128, oldRow (F := Ideal) (outsAt0 m c (t.val - 1) (Nat.lt_of_le_of_lt (Nat.sub_le _ _) t.isLt))
        (ix2 (0 : Fin 1) k) = ((o k : ℝ) : EReal) := fun k =>
      (oldRow_apply (F := Ideal) (outsAt0 m c (t.val - 1) (Nat.lt_of_le_of_lt (Nat.sub_le _ _) t.isLt)) k).trans
        ((ih (0 : Fin 8) k).trans (by rw [if_pos (show (0 : Fin 8).val = 0 from rfl)]))
    exact pay2_point m c P A pos neg hP hA hpos hneg t
      (oldRow (F := Ideal) (outsAt0 m c (t.val - 1) (Nat.lt_of_le_of_lt (Nat.sub_le _ _) t.isLt))) o ho k
  · rw [if_neg hρ, if_neg hρ]
    exact (ih ρ k).trans (by rw [if_neg hρ])

/-- THE INVARIANT: after point `n` the output block's top row holds its core's contributions of blocks `0 … n mod 16`
    summed, lane by lane, and its other rows hold zero. By induction on the point. -/
theorem outsAt_eq : ∀ (n : ℕ) (hn : n < cfg0.N) (ρ : Fin 8) (k : Fin 128),
    outsAt0 m c n hn (ix2 ρ k)
      = ((if ρ.val = 0 then accRow P A pos neg (qOf ⟨n, hn⟩) (n % 16) k else 0 : ℝ) : EReal) := by
  intro n
  induction n with
  | zero =>
    intro hn ρ k
    refine (outsAt_A m c P A pos neg hP hA hpos hneg ⟨0, hn⟩ rfl ρ k).trans ?_
    congr 1
    refine if_congr Iff.rfl ?_ rfl
    rw [zero_add]
    refine Eq.trans ?_ (sum_le_split (fun i => Cert.Spec.part P A pos neg (qOf ⟨0, hn⟩) i k) (iOf ⟨0, hn⟩)).symm
    rw [sum_lt_zero _ (iOf ⟨0, hn⟩) rfl, zero_add]
  | succ n ih =>
    intro hn ρ k
    have hN : n + 1 < 32 := lt_of_lt_of_eq hn (show cfg0.N = 32 from N_0)
    by_cases h0 : (n + 1) % 16 = 0
    · refine (outsAt_A m c P A pos neg hP hA hpos hneg ⟨n + 1, hn⟩ h0 ρ k).trans ?_
      congr 1
      refine if_congr Iff.rfl ?_ rfl
      rw [zero_add]
      refine Eq.trans ?_ (sum_le_split (fun i => Cert.Spec.part P A pos neg (qOf ⟨n + 1, hn⟩) i k) (iOf ⟨n + 1, hn⟩)).symm
      rw [sum_lt_zero _ (iOf ⟨n + 1, hn⟩) h0, zero_add]
    · refine (outsAt_B m c P A pos neg hP hA hpos hneg ⟨n + 1, hn⟩ h0
        (fun k => accRow P A pos neg (qOf ⟨n, Nat.lt_of_succ_lt hn⟩) (n % 16) k)
        (fun ρ k => ih (Nat.lt_of_succ_lt hn) ρ k) ρ k).trans ?_
      congr 1
      refine if_congr Iff.rfl ?_ rfl
      have hq : qOf ⟨n, Nat.lt_of_succ_lt hn⟩ = qOf ⟨n + 1, hn⟩ := Fin.ext (by show n / 16 = (n + 1) / 16; omega)
      rw [hq]
      refine Eq.trans ?_ (sum_le_split (fun i => Cert.Spec.part P A pos neg (qOf ⟨n + 1, hn⟩) i k) (iOf ⟨n + 1, hn⟩)).symm
      congr 1
      exact Finset.sum_congr rfl fun i _ => if_congr (by show i.val ≤ n % 16 ↔ i.val < (n + 1) % 16; omega) rfl rfl

end Inv

end Acc

/-- The region's result array over the reals: row `8q` holds core `q`'s sixteen contributions summed, lane by lane;
    every other row is zero. -/
def outArr (P : Cert.Spec.SPred.Idx → ℝ) (A : Cert.Spec.SAnch.Idx → ℝ) (pos neg : Fin 16384 → Fin 10) :
    (⟨2, ![16, 128]⟩ : Shape).Idx → EReal := fun j =>
  (((if (j 0).val % 8 = 0 then
      ∑ i : Fin 16, Cert.Spec.part P A pos neg (⟨(j 0).val / 8, by have := idx2_lt0 j; omega⟩ : Fin 2) i
        (⟨(j 1).val, idx2_lt1 j⟩ : Fin 128)
    else 0 : ℝ)) : EReal)

namespace Acc

/-- The output window's blocks are whole 8×128 blocks. -/
theorem xsize5 : ∀ t : Fin cfg0.N, win0_5.xsize (grid0.coords t) (0 : Fin 2) = 8 ∧ win0_5.xsize (grid0.coords t) 1 = 128 :=
  (by decide +kernel : ∀ t : Fin grid0.N, win0_5.xsize (grid0.coords t) (0 : Fin 2) = 8 ∧ win0_5.xsize (grid0.coords t) 1 = 128)

/-- The result array at row `8q + ρ`, lane `k`. -/
theorem outArr_apply (P : Cert.Spec.SPred.Idx → ℝ) (A : Cert.Spec.SAnch.Idx → ℝ) (pos neg : Fin 16384 → Fin 10)
    (j : (⟨2, ![16, 128]⟩ : Shape).Idx) (q : Fin 2) (ρ : Fin 8) (k : Fin 128)
    (h0 : (j 0).val = q.val * 8 + ρ.val) (h1 : (j 1).val = k.val) :
    outArr P A pos neg j
      = ((if ρ.val = 0 then ∑ i : Fin 16, Cert.Spec.part P A pos neg q i k else 0 : ℝ) : EReal) := by
  unfold outArr
  congr 1
  have hρ := ρ.isLt
  have hq := q.isLt
  by_cases hρ0 : ρ.val = 0
  · rw [if_pos hρ0, if_pos (by omega)]
    refine Finset.sum_congr rfl fun i _ => ?_
    exact congrArg₂ (fun q k => Cert.Spec.part P A pos neg q i k) (Fin.ext (by show (j 0).val / 8 = q.val; omega)) (Fin.ext h1)
  · rw [if_neg hρ0, if_neg (by omega)]

section Final

variable (c : Dev nD) (P : Cert.Spec.SPred.Idx → ℝ) (A : Cert.Spec.SAnch.Idx → ℝ) (pos neg : Fin 16384 → Fin 10)
    (hP : m ((c : Thread nD τ).loc main_arg0) = fun i => ((P i : ℝ) : EReal))
    (hA : m ((c : Thread nD τ).loc main_arg1) = fun i => ((A i : ℝ) : EReal))
    (hpos : ∀ r : Fin 16384, m ((c : Thread nD τ).loc main_arg2) (ix1 r) = BitVec.ofNat 32 (pos r).val)
    (hneg : ∀ r : Fin 16384, Cert.IntChain.negChain (m ((c : Thread nD τ).loc main_arg2))
        (m ((c : Thread nD τ).loc main_arg3)) (ix1 r) = BitVec.ofNat 32 (neg r).val)

include hP hA hpos hneg in
/-- The write-back after a core's sixteenth block writes the core's eight rows of the result. -/
theorem flushed_eq (t : Fin cfg0.N) (hf : (cfg0.win 5).flush t = true) :
    (dats m 0 c).flushed 5 t = ((cfg0.win 5).blk t).view.read (Elt Ideal) (outArr P A pos neg) := by
  have h15 : t.val % 16 = 15 := (flush0_5 t).mp hf
  refine funext fun (j : S8x128.Idx) => ?_
  obtain ⟨ρ, k, rfl⟩ : ∃ (ρ : Fin 8) (k : Fin 128), j = ix2 ρ k := ⟨j 0, j 1, eq_ix2 j⟩
  show (cfg0.win 5).cut (grid0.coords t) ((dats m 0 c).after 5 t) (ix2 ρ k) = _
  rw [after0_5, View.read_apply]
  show outsAt0 m c t.val t.isLt (ix2 ρ k) = outArr P A pos neg _
  refine (outsAt_eq m c P A pos neg hP hA hpos hneg t.val t.isLt ρ k).trans ?_
  refine Eq.trans ?_ (outArr_apply P A pos neg _ (qOf t) ρ k ?_ ?_).symm
  · congr 1
    refine if_congr Iff.rfl ?_ rfl
    unfold accRow
    exact Finset.sum_congr rfl fun i _ => if_pos (by have := i.isLt; omega)
  · show win0_5.index t 0 * 8 + 1 * ρ.val = t.val / 16 * 8 + ρ.val
    rw [(idx5 t).1]; omega
  · show win0_5.index t 1 * 128 + 1 * k.val = k.val
    rw [(idx5 t).2]; omega

/-- Every row of the result lies in the block one of the two write-backs writes. -/
theorem cover5 (i : (⟨2, ![16, 128]⟩ : Shape).Idx) :
    ∃ t : Fin cfg0.N, (cfg0.win 5).flush t = true ∧ i ∈ ((cfg0.win 5).blk t).view.set := by
  have hi0 := idx2_lt0 i
  have hi1 := idx2_lt1 i
  have hlt : 16 * ((i 0).val / 8) + 15 < cfg0.N := lt_of_lt_of_eq (by omega) (show cfg0.N = 32 from N_0).symm
  refine ⟨⟨16 * ((i 0).val / 8) + 15, hlt⟩, (flush0_5 _).mpr (by show (16 * ((i 0).val / 8) + 15) % 16 = 15; omega), ?_⟩
  show i ∈ ((View.whole main_v13).slice (win0_5.rect ⟨16 * ((i 0).val / 8) + 15, hlt⟩)).set
  rw [View.set_slice_whole, Rect.mem_set_unit]
  intro a
  match a with
  | ⟨0, _⟩ =>
    show win0_5.index ⟨16 * ((i 0).val / 8) + 15, hlt⟩ 0 * 8 ≤ (i 0 : Nat)
      ∧ (i 0 : Nat) < win0_5.index ⟨16 * ((i 0).val / 8) + 15, hlt⟩ 0 * 8 + win0_5.xsize (grid0.coords ⟨16 * ((i 0).val / 8) + 15, hlt⟩) 0
    rw [(idx5 _).1, (xsize5 _).1]
    show (16 * ((i 0).val / 8) + 15) / 16 * 8 ≤ (i 0 : Nat) ∧ (i 0 : Nat) < (16 * ((i 0).val / 8) + 15) / 16 * 8 + 8
    omega
  | ⟨1, _⟩ =>
    show win0_5.index ⟨16 * ((i 0).val / 8) + 15, hlt⟩ 1 * 128 ≤ (i 1 : Nat)
      ∧ (i 1 : Nat) < win0_5.index ⟨16 * ((i 0).val / 8) + 15, hlt⟩ 1 * 128 + win0_5.xsize (grid0.coords ⟨16 * ((i 0).val / 8) + 15, hlt⟩) 1
    rw [(idx5 _).2, (xsize5 _).2]
    omega

end Final

end Acc

theorem final_out (c : Dev nD) (P : Cert.Spec.SPred.Idx → ℝ) (A : Cert.Spec.SAnch.Idx → ℝ) (pos neg : Fin 16384 → Fin 10)
    (hP : m ((c : Thread nD τ).loc main_arg0) = fun i => ((P i : ℝ) : EReal))
    (hA : m ((c : Thread nD τ).loc main_arg1) = fun i => ((A i : ℝ) : EReal))
    (hpos : ∀ r : Fin 16384, m ((c : Thread nD τ).loc main_arg2) (ix1 r) = BitVec.ofNat 32 (pos r).val)
    (hneg : ∀ r : Fin 16384, Cert.IntChain.negChain (m ((c : Thread nD τ).loc main_arg2))
        (m ((c : Thread nD τ).loc main_arg3)) (ix1 r) = BitVec.ofNat 32 (neg r).val) :
    (dats m 0 c).arrAt 5 cfg0.N = outArr P A pos neg :=
  (dats m 0 c).arrAt_eq_of_cover 5 (outArr P A pos neg) (Acc.flushed_eq m c P A pos neg hP hA hpos hneg) Acc.cover5

end Cert.KernelIdeal.KV

end
-- ==== Proof.KerTail.lean ====
/-
  The kernel's run read as a value. After the region the host takes row 0 of each core's 8×128 block, sums its
  128 lanes, sums the two cores, divides by the batch size and adds the margin: over the reals, `Spec.kerLoss`.
-/
import proofs.«407653_j73632919323010_3_alg».proof.Proof.KerAccum

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

namespace Tail

/-! ## The host's lines after the region as one function of the region's result array -/

section Generic
variable {F : FTy → Type} [FloatOps F]

/-- The seven operations after the region, composed: view the 16×128 result as 2×8×128, keep row 0 of each 8×128 block,
    view that as 2×128, sum the lanes from zero, sum the two rows from zero, divide by the batch size, add the margin. -/
def tailFn (o : FVec F S16x128 .f32) : FVec F S_ .f32 :=
  addf
    (Host.divf (F := F)
      (Host.reduceAdd (F := F)
        (Host.reduceAdd (F := F)
          (shapeCast S2x128
            (extractStridedSlice S2x1x128 ![0, 0, 0] (shapeCast S2x8x128 o shapeCasts_S16x128_S2x8x128)
              slices_S2x8x128_S2x1x128_0_0_0)
            shapeCasts_S2x1x128_S2x128)
          (constant (F := F) S_ .f32 0x00000000#32) reducesTo_S2x128_S2_d1 h_S_)
        (constant (F := F) S_ .f32 0x00000000#32) reducesTo_S2_S_d0 h_S_)
      (constant (F := F) S_ .f32 0x46800000#32))
    (constant (F := F) S_ .f32 0x3DCCCCCD#32)

/-- What the lines after the region leave in the result buffer: `tailFn` of the region's result array. -/
theorem tail_eq (m : (ℓ : Loc nD τ sig) → Buf (Elt F) ℓ) (c : Dev nD) :
    Pipeline.afterTail₀ cfgs (dats m) 0 (V0 m) [hostOps1] c main_v20 = tailFn (F := F) ((dats m 0 c).arrAt 5 cfg0.N) := by
  unfold Pipeline.afterTail₀
  show StableHlo.after hostOps1 _ (Proc.devRef .tc main_v20) = _
  after_results
  exact congrArg (tailFn (F := F)) (Pipeline.withArrays_arr spec0 launch0.win.arr_inj c _ _ 5)

end Generic

/-! ## The layout operations read at an index -/

/-- Entry (q, k) of the 2×128 array the host sums is entry (8q, k) of the result array: (q, k) of 2×128 is (q, 0, k) of
    2×1×128, the slice keeps it, and (q, 0, k) of 2×8×128 sits at row-major position (8q)·128 + k. -/
theorem rows_apply {α : Type} (o : S16x128.Idx → α) (q : Fin 2) (k : Fin 128) :
    shapeCast S2x128
        (extractStridedSlice S2x1x128 ![0, 0, 0] (shapeCast S2x8x128 o shapeCasts_S16x128_S2x8x128)
          slices_S2x8x128_S2x1x128_0_0_0)
        shapeCasts_S2x1x128_S2x128 (ix2 q k)
      = o (ix2 (⟨8 * q.val, by have := q.isLt; omega⟩ : Fin 16) k) := by
  refine (shapeCast_apply _ _ (ix2 q k) (ix3 q (0 : Fin 1) k) ?_).trans ?_
  · rw [Shape.rowMajor_val_three, Shape.rowMajor_val_two]
    show (q.val * 1 + 0) * 128 + k.val = q.val * 128 + k.val
    omega
  refine (extractStridedSlice_apply _ _ _ (ix3 q (0 : Fin 1) k) (ix3 q (0 : Fin 8) k) ?_).trans ?_
  · intro a
    match a with
    | ⟨0, _⟩ => show q.val = 0 + q.val; omega
    | ⟨1, _⟩ => show 0 = 0 + 0; omega
    | ⟨2, _⟩ => show k.val = 0 + k.val; omega
  refine shapeCast_apply _ _ (ix3 q (0 : Fin 8) k) (ix2 (⟨8 * q.val, by have := q.isLt; omega⟩ : Fin 16) k) ?_
  rw [Shape.rowMajor_val_two, Shape.rowMajor_val_three]
  show (8 * q.val) * 128 + k.val = (q.val * 8 + 0) * 128 + k.val
  omega

/-! ## The two host sums -/

/-- The host's sum over the lanes, from the zero word: row `q`'s 128 entries added up. -/
theorem inner_sum (x : FVec Ideal S2x128 .f32) (q : Fin 2) :
    Host.reduceAdd (F := Ideal) x (constant (F := Ideal) S_ .f32 0x00000000#32) reducesTo_S2x128_S2_d1 h_S_ (ix1 q)
      = ∑ k : Fin 128, x (ix2 q k) := by
  refine (Ideal.hostReduceAdd_single reducesTo_S2x128_S2_d1 (by decide) x _ (ix1 q)).trans ?_
  show (Ideal.ofBits .f32 0x00000000#32 : EReal) + _ = _
  rw [Ideal.ofBits_zero_f32, zero_add]
  refine Finset.sum_congr rfl fun k _ => congrArg x ?_
  funext a
  match a with
  | ⟨0, _⟩ => rfl
  | ⟨1, _⟩ => rfl

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- The host's sum over the two rows, from the zero word: a sum into the scalar shape runs over every index of the
    operand, and a rank-1 index is its coordinate. -/
theorem outer_sum (y : FVec Ideal S2 .f32) (j : S_.Idx) :
    Host.reduceAdd (F := Ideal) y (constant (F := Ideal) S_ .f32 0x00000000#32) reducesTo_S2_S_d0 h_S_ j
      = ∑ q : Fin 2, y (ix1 q) := by
  refine (Ideal.hostReduceAdd_total reducesTo_S2_S_d0 (fun b => b.elim0) y _ j).trans ?_
  show (Ideal.ofBits .f32 0x00000000#32 : EReal) + _ = _
  rw [Ideal.ofBits_zero_f32, zero_add]
  exact (Equiv.sum_comp (idxEquiv1 (n := 2)).symm y).symm

/-- The tail over the extended reals: the double sum of rows 0 and 8 of the result array, divided by the word
    of the batch size, plus the word of the margin. -/
theorem tailFn_ideal (o : FVec Ideal S16x128 .f32) (j : S_.Idx) :
    tailFn (F := Ideal) o j
      = Ideal.div (∑ q : Fin 2, ∑ k : Fin 128, o (ix2 (⟨8 * q.val, by have := q.isLt; omega⟩ : Fin 16) k))
          (Ideal.ofBits .f32 0x46800000#32) + Ideal.ofBits .f32 0x3DCCCCCD#32 := by
  show Ideal.div (Host.reduceAdd (F := Ideal) _ (constant (F := Ideal) S_ .f32 0x00000000#32) reducesTo_S2_S_d0 h_S_ j) _ + _ = _
  rw [outer_sum]
  simp only [inner_sum, rows_apply, constant_apply]

/-! ## The value -/

/-- A finite sum of reals, coerced, is the sum of the coercions. -/
theorem coe_sum {ι : Type} (s : Finset ι) (f : ι → ℝ) :
    ((∑ i ∈ s, f i : ℝ) : EReal) = ∑ i ∈ s, ((f i : ℝ) : EReal) := by
  classical
  refine Finset.induction_on s (by simp) fun a s ha ih => ?_
  rw [Finset.sum_insert ha, Finset.sum_insert ha, EReal.coe_add, ih]

/-- Row `8q` of the result array holds core `q`'s sums: `8q` is a multiple of 8 and `8q / 8 = q`. -/
theorem outArr_row (P : Cert.Spec.SPred.Idx → ℝ) (A : Cert.Spec.SAnch.Idx → ℝ) (pos neg : Fin 16384 → Fin 10)
    (q : Fin 2) (k : Fin 128) :
    outArr P A pos neg (ix2 (⟨8 * q.val, by have := q.isLt; omega⟩ : Fin 16) k)
      = ((∑ i : Fin 16, Cert.Spec.part P A pos neg q i k : ℝ) : EReal) := by
  have h8 : (8 * q.val) % 8 = 0 := by omega
  have hq : (⟨(8 * q.val) / 8, by have := q.isLt; omega⟩ : Fin 2) = q := Fin.ext (by show 8 * q.val / 8 = q.val; omega)
  show (((if (8 * q.val) % 8 = 0 then
      ∑ i : Fin 16, Cert.Spec.part P A pos neg (⟨(8 * q.val) / 8, by have := q.isLt; omega⟩ : Fin 2) i (⟨k.val, k.isLt⟩ : Fin 128)
    else 0 : ℝ)) : EReal) = _
  rw [if_pos h8, hq]

/-- The tail of the region's result array is the kernel's loss. -/
theorem tailFn_outArr (P : Cert.Spec.SPred.Idx → ℝ) (A : Cert.Spec.SAnch.Idx → ℝ) (pos neg : Fin 16384 → Fin 10) :
    tailFn (F := Ideal) (outArr P A pos neg)
      = fun _ => ((Cert.Spec.kerLoss P A pos neg Cert.Consts.margin : ℝ) : EReal) := by
  funext j
  rw [tailFn_ideal, Cert.Consts.ofBits_16384, Cert.Consts.ofBits_margin, Ideal.div_coe (by norm_num : (16384 : ℝ) ≠ 0)]
  simp only [outArr_row, ← coe_sum]
  rw [← EReal.coe_mul, ← EReal.coe_add]
  unfold Cert.Spec.kerLoss
  rw [mul_one_div]

end Tail

/-! ## The run -/

theorem run (m : (ℓ : Loc nD τ sig) → Buf (Elt Ideal) ℓ) (ρ : Dev nD → PrngReg)
    (P : Dev nD → Cert.Spec.SPred.Idx → ℝ) (A : Dev nD → Cert.Spec.SAnch.Idx → ℝ) (pos neg : Dev nD → Fin 16384 → Fin 10)
    (hP : ∀ c : Dev nD, m ((c : Thread nD τ).loc main_arg0) = fun i => ((P c i : ℝ) : EReal))
    (hA : ∀ c : Dev nD, m ((c : Thread nD τ).loc main_arg1) = fun i => ((A c i : ℝ) : EReal))
    (hpos : ∀ (c : Dev nD) (r : Fin 16384), m ((c : Thread nD τ).loc main_arg2) (ix1 r) = BitVec.ofNat 32 (pos c r).val)
    (hneg : ∀ (c : Dev nD) (r : Fin 16384), Cert.IntChain.negChain (m ((c : Thread nD τ).loc main_arg2))
        (m ((c : Thread nD τ).loc main_arg3)) (ix1 r) = BitVec.ofNat 32 (neg c r).val) :
    θ_run (defs (F := Ideal)) (onTc (τ := τ) (main (F := Ideal))) ⟨m, fun _ => 0, ρ⟩ (fun r => ∀ c : Dev nD,
      r.2.mem ((c.tc : Thread nD τ).loc main_v20)
          = (fun _ => ((Cert.Spec.kerLoss (P c) (A c) (pos c) (neg c) Cert.Consts.margin : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ?_, ?_, ?_, ?_⟩) (run_main (F := Ideal) m ρ)
  · exact (((h c).2 main_v20 (Pipeline.mem_restRefs_of main_v20 (by decide) (by decide))).trans (Tail.tail_eq m c)).trans
      ((congrArg (Tail.tailFn (F := Ideal))
          (final_out m c (P c) (A c) (pos c) (neg c) (hP c) (hA c) (hpos c) (hneg c))).trans
        (Tail.tailFn_outArr (P c) (A c) (pos c) (neg c)))
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)

end Cert.KernelIdeal.KV

end
-- ==== Proof.RefFn.lean ====
/-
  The reference's result as one function of its four arguments: the host operations of its program composed.
  A label indexes the anchor table the way NumPy indexing does (a negative label counts from the end, then the
  gather clamps into the table); the mean squared distance of every sample to its anchor row is a sum over the
  feature axis divided by 4096; the loss is the mean over samples of the positive distance minus the negative
  one plus the margin.
-/
import proofs.«407653_j73632919323010_3_alg».proof.ReferenceIdeal
import proofs.«407653_j73632919323010_3_alg».proof.Proof.Gen.ReferenceIdeal
import proofs.«407653_j73632919323010_3_alg».proof.Proof.IntChain

noncomputable section

namespace Cert.ReferenceIdeal.RV

open Idealize.ShloMosaic Cert.ReferenceIdeal Cert.ReferenceIdeal.Facts₀

variable {F : FTy → Type} [FloatOps F]

/-- A label as a start index of the gather: a negative one moved up by the table's ten rows, as a column. -/
def wrapIdx (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 10#32))) i)

/-- The anchor row of every sample's label. -/
def rowsAt (anch : FVec F S10x4096 .f32) (i : IVec S16384 32) : FVec F S16384x4096 .f32 :=
  Host.gather gather_S10x4096_S16384x1_S16384x4096_1_0_n_n_0_1_14096 anch (wrapIdx i)

/-- Every sample's mean squared distance to the anchor row of its label. -/
def mseTo (pred : FVec F S16384x4096 .f32) (anch : FVec F S10x4096 .f32) (i : IVec S16384 32) : FVec F S16384 .f32 :=
  Host.divf
    (Host.reduceAdd (mulf (subf pred (rowsAt anch i)) (subf pred (rowsAt anch i))) (constant S_ .f32 0x00000000#32)
      reducesTo_S16384x4096_S16384_d1 h_S_)
    (broadcastInDim S16384 ![] bcast_S_S16384 (constant S_ .f32 0x45800000#32))

/-- The reference's result. -/
def refFn (pred : FVec F S16384x4096 .f32) (anch : FVec F S10x4096 .f32) (clss off : IVec S16384 32) : FVec F S_ .f32 :=
  Host.divf
    (Host.reduceAdd
      (addf (subf (mseTo pred anch clss) (mseTo pred anch (Cert.IntChain.negChain clss off)))
        (broadcastInDim S16384 ![] bcast_S_S16384 (constant S_ .f32 0x3DCCCCCD#32)))
      (constant S_ .f32 0x00000000#32) reducesTo_S16384_S_d0 h_S_)
    (constant S_ .f32 0x46800000#32)

end Cert.ReferenceIdeal.RV

end
-- ==== Proof.RefRun.lean ====
/-
  The reference's run: its program is a straight line of host operations (two calls of the floor remainder
  spelled out where they are made), so every weakly fair execution ends with the result buffer at the composed
  function of the arguments, and the arguments untouched.

  The line is listed once, in program order: the four operations before the first call, the twenty-one of the
  first floor remainder over that call's buffers (its divisor the constant nine, its result the buffer the
  caller reads next), the two between the calls, the twenty-one of the second (divisor ten), and the forty
  after it (the two label wraps and gathers, the two mean squared distances, the margin and the final mean).
  The program equals the line once the calls are unfolded and sequencing is reassociated; the fold of the
  line at a buffer is then a computation: at the result buffer it is the composed function, at an argument
  buffer (no operation writes one) it is what was there.
-/
import proofs.«407653_j73632919323010_3_alg».proof.Proof.RefFn
import Idealize.ShloMosaic.Lib.StableHlo.Run
import Idealize.ShloMosaic.Lib.Pipeline.Regions

noncomputable section

namespace Cert.ReferenceIdeal.RV

open Idealize.ShloMosaic Idealize.ShloMosaic.TcCoe Idealize.SL.Sem Cert.ReferenceIdeal

variable {F : FTy → Type} [FloatOps F]

section Line

open Cert.ReferenceIdeal.Facts₀

/-- @main's first four operations: the labels moved up by one, and the divisor nine. -/
abbrev ops0 : List (HloOp τ sig (Elt F)) :=
  [ StableHlo.nullary main_c (constantI S_ 32 1#32),
    StableHlo.unary main_c main_v0 (broadcastInDim S16384 ![] bcast_S_S16384 : (⟨S_, .i32⟩ : BufTy).Contents (Elt F) → (⟨S16384, .i32⟩ : BufTy).Contents (Elt F)),
    StableHlo.binary main_arg2 main_v0 main_v1 (addi : (⟨S16384, .i32⟩ : BufTy).Contents (Elt F) → (⟨S16384, .i32⟩ : BufTy).Contents (Elt F) → (⟨S16384, .i32⟩ : BufTy).Contents (Elt F)),
    StableHlo.nullary main_c_0 (constantI S_ 32 9#32) ]

/-- The twenty-one operations of the first floor remainder (the offsets by nine), over that call's buffers. -/
abbrev ops1 : List (HloOp τ sig (Elt F)) :=
  [ StableHlo.TRef.unary (.of main_c_0 : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S16384, .i32⟩) (broadcastInDim S16384 ![] bcast_S_S16384),
    StableHlo.TRef.binary (.of main_arg3 : StableHlo.TRef sig ⟨S16384, .i32⟩) (.of main_call0_v3 : StableHlo.TRef sig ⟨S16384, .i32⟩) (.of main_call0_v4 : StableHlo.TRef sig ⟨S16384, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S16384, .i32⟩) (broadcastInDim S16384 ![] bcast_S_S16384),
    StableHlo.TRef.binary (.of main_call0_v4 : StableHlo.TRef sig ⟨S16384, .i32⟩) (.of main_call0_v5 : StableHlo.TRef sig ⟨S16384, .i32⟩) (.of main_call0_v6 : StableHlo.TRef sig ⟨S16384, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S16384, .i32⟩) (broadcastInDim S16384 ![] bcast_S_S16384),
    StableHlo.TRef.binary (.of main_call0_v4 : StableHlo.TRef sig ⟨S16384, .i32⟩) (.of main_call0_v7 : StableHlo.TRef sig ⟨S16384, .i32⟩) (.of main_call0_v8 : StableHlo.TRef sig ⟨S16384, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S16384, .i1⟩) (broadcastInDim S16384 ![] bcast_S_S16384),
    StableHlo.TRef.binary (.of main_call0_v8 : StableHlo.TRef sig ⟨S16384, .i1⟩) (.of main_call0_v10 : StableHlo.TRef sig ⟨S16384, .i1⟩) (.of main_call0_v11 : StableHlo.TRef sig ⟨S16384, .i1⟩) (cmpi .ne),
    StableHlo.TRef.binary (.of main_call0_v11 : StableHlo.TRef sig ⟨S16384, .i1⟩) (.of main_call0_v6 : StableHlo.TRef sig ⟨S16384, .i1⟩) (.of main_call0_v12 : StableHlo.TRef sig ⟨S16384, .i1⟩) andi,
    StableHlo.TRef.unary main_call0_call0.v0 (.of main_call0_v13 : StableHlo.TRef sig ⟨S16384, .i32⟩) (broadcastInDim S16384 ![] bcast_S_S16384),
    StableHlo.TRef.binary (.of main_call0_v4 : StableHlo.TRef sig ⟨S16384, .i32⟩) (.of main_call0_v13 : StableHlo.TRef sig ⟨S16384, .i32⟩) (.of main_call0_v14 : StableHlo.TRef sig ⟨S16384, .i32⟩) addi,
    StableHlo.TRef.ternary (.of main_call0_v12 : StableHlo.TRef sig ⟨S16384, .i1⟩) (.of main_call0_v14 : StableHlo.TRef sig ⟨S16384, .i32⟩) (.of main_call0_v4 : StableHlo.TRef sig ⟨S16384, .i32⟩) (.of main_v2 : StableHlo.TRef sig ⟨S16384, .i32⟩) select ]

/-- The two operations between the calls: the shifted labels, and the divisor ten. -/
abbrev ops2 : List (HloOp τ sig (Elt F)) :=
  [ StableHlo.binary main_v1 main_v2 main_v3 (addi : (⟨S16384, .i32⟩ : BufTy).Contents (Elt F) → (⟨S16384, .i32⟩ : BufTy).Contents (Elt F) → (⟨S16384, .i32⟩ : BufTy).Contents (Elt F)),
    StableHlo.nullary main_c_1 (constantI S_ 32 10#32) ]

/-- The twenty-one operations of the second floor remainder (the shifted labels by ten), over that call's buffers. -/
abbrev ops3 : List (HloOp τ sig (Elt F)) :=
  [ StableHlo.TRef.unary (.of main_c_1 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S16384, .i32⟩) (broadcastInDim S16384 ![] bcast_S_S16384),
    StableHlo.TRef.binary (.of main_v3 : StableHlo.TRef sig ⟨S16384, .i32⟩) (.of main_call1_v3 : StableHlo.TRef sig ⟨S16384, .i32⟩) (.of main_call1_v4 : StableHlo.TRef sig ⟨S16384, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S16384, .i32⟩) (broadcastInDim S16384 ![] bcast_S_S16384),
    StableHlo.TRef.binary (.of main_call1_v4 : StableHlo.TRef sig ⟨S16384, .i32⟩) (.of main_call1_v5 : StableHlo.TRef sig ⟨S16384, .i32⟩) (.of main_call1_v6 : StableHlo.TRef sig ⟨S16384, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S16384, .i32⟩) (broadcastInDim S16384 ![] bcast_S_S16384),
    StableHlo.TRef.binary (.of main_call1_v4 : StableHlo.TRef sig ⟨S16384, .i32⟩) (.of main_call1_v7 : StableHlo.TRef sig ⟨S16384, .i32⟩) (.of main_call1_v8 : StableHlo.TRef sig ⟨S16384, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S16384, .i1⟩) (broadcastInDim S16384 ![] bcast_S_S16384),
    StableHlo.TRef.binary (.of main_call1_v8 : StableHlo.TRef sig ⟨S16384, .i1⟩) (.of main_call1_v10 : StableHlo.TRef sig ⟨S16384, .i1⟩) (.of main_call1_v11 : StableHlo.TRef sig ⟨S16384, .i1⟩) (cmpi .ne),
    StableHlo.TRef.binary (.of main_call1_v11 : StableHlo.TRef sig ⟨S16384, .i1⟩) (.of main_call1_v6 : StableHlo.TRef sig ⟨S16384, .i1⟩) (.of main_call1_v12 : StableHlo.TRef sig ⟨S16384, .i1⟩) andi,
    StableHlo.TRef.unary main_call1_call0.v0 (.of main_call1_v13 : StableHlo.TRef sig ⟨S16384, .i32⟩) (broadcastInDim S16384 ![] bcast_S_S16384),
    StableHlo.TRef.binary (.of main_call1_v4 : StableHlo.TRef sig ⟨S16384, .i32⟩) (.of main_call1_v13 : StableHlo.TRef sig ⟨S16384, .i32⟩) (.of main_call1_v14 : StableHlo.TRef sig ⟨S16384, .i32⟩) addi,
    StableHlo.TRef.ternary (.of main_call1_v12 : StableHlo.TRef sig ⟨S16384, .i1⟩) (.of main_call1_v14 : StableHlo.TRef sig ⟨S16384, .i32⟩) (.of main_call1_v4 : StableHlo.TRef sig ⟨S16384, .i32⟩) (.of main_v4 : StableHlo.TRef sig ⟨S16384, .i32⟩) select ]

/-- The forty operations after the calls: both label vectors wrapped and their anchor rows gathered, the two mean
    squared distances, the margin, the mean over the samples. -/
abbrev ops4 : List (HloOp τ sig (Elt F)) :=
  [ -- the positive labels wrapped, their anchor rows
    StableHlo.nullary main_c_2 (constantI S_ 32 0#32),
    StableHlo.unary main_c_2 main_v5 (broadcastInDim S16384 ![] bcast_S_S16384 : (⟨S_, .i32⟩ : BufTy).Contents (Elt F) → (⟨S16384, .i32⟩ : BufTy).Contents (Elt F)),
    StableHlo.binary main_arg2 main_v5 main_v6 (cmpi .slt : (⟨S16384, .i32⟩ : BufTy).Contents (Elt F) → (⟨S16384, .i32⟩ : BufTy).Contents (Elt F) → (⟨S16384, .i1⟩ : BufTy).Contents (Elt F)),
    StableHlo.nullary main_c_3 (constantI S_ 32 10#32),
    StableHlo.unary main_c_3 main_v7 (broadcastInDim S16384 ![] bcast_S_S16384 : (⟨S_, .i32⟩ : BufTy).Contents (Elt F) → (⟨S16384, .i32⟩ : BufTy).Contents (Elt F)),
    StableHlo.binary main_arg2 main_v7 main_v8 (addi : (⟨S16384, .i32⟩ : BufTy).Contents (Elt F) → (⟨S16384, .i32⟩ : BufTy).Contents (Elt F) → (⟨S16384, .i32⟩ : BufTy).Contents (Elt F)),
    StableHlo.ternary main_v6 main_v8 main_arg2 main_v9 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v9 main_v10 (broadcastInDim S16384x1 ![0] bcast_S16384_S16384x1_0 : (⟨S16384, .i32⟩ : BufTy).Contents (Elt F) → (⟨S16384x1, .i32⟩ : BufTy).Contents (Elt F)),
    StableHlo.binary main_arg1 main_v10 main_v11 ((fun x i => Host.gather gather_S10x4096_S16384x1_S16384x4096_1_0_n_n_0_1_14096 x i) : (⟨S10x4096, .f32⟩ : BufTy).Contents (Elt F) → (⟨S16384x1, .i32⟩ : BufTy).Contents (Elt F) → (⟨S16384x4096, .f32⟩ : BufTy).Contents (Elt F)),
    -- the negative labels wrapped, their anchor rows
    StableHlo.nullary main_c_4 (constantI S_ 32 0#32),
    StableHlo.unary main_c_4 main_v12 (broadcastInDim S16384 ![] bcast_S_S16384 : (⟨S_, .i32⟩ : BufTy).Contents (Elt F) → (⟨S16384, .i32⟩ : BufTy).Contents (Elt F)),
    StableHlo.binary main_v4 main_v12 main_v13 (cmpi .slt : (⟨S16384, .i32⟩ : BufTy).Contents (Elt F) → (⟨S16384, .i32⟩ : BufTy).Contents (Elt F) → (⟨S16384, .i1⟩ : BufTy).Contents (Elt F)),
    StableHlo.nullary main_c_5 (constantI S_ 32 10#32),
    StableHlo.unary main_c_5 main_v14 (broadcastInDim S16384 ![] bcast_S_S16384 : (⟨S_, .i32⟩ : BufTy).Contents (Elt F) → (⟨S16384, .i32⟩ : BufTy).Contents (Elt F)),
    StableHlo.binary main_v4 main_v14 main_v15 (addi : (⟨S16384, .i32⟩ : BufTy).Contents (Elt F) → (⟨S16384, .i32⟩ : BufTy).Contents (Elt F) → (⟨S16384, .i32⟩ : BufTy).Contents (Elt F)),
    StableHlo.ternary main_v13 main_v15 main_v4 main_v16 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v16 main_v17 (broadcastInDim S16384x1 ![0] bcast_S16384_S16384x1_0 : (⟨S16384, .i32⟩ : BufTy).Contents (Elt F) → (⟨S16384x1, .i32⟩ : BufTy).Contents (Elt F)),
    StableHlo.binary main_arg1 main_v17 main_v18 ((fun x i => Host.gather gather_S10x4096_S16384x1_S16384x4096_1_0_n_n_0_1_14096 x i) : (⟨S10x4096, .f32⟩ : BufTy).Contents (Elt F) → (⟨S16384x1, .i32⟩ : BufTy).Contents (Elt F) → (⟨S16384x4096, .f32⟩ : BufTy).Contents (Elt F)),
    -- the mean squared distance to the positive rows
    StableHlo.binary main_arg0 main_v11 main_v19 (subf : (⟨S16384x4096, .f32⟩ : BufTy).Contents (Elt F) → (⟨S16384x4096, .f32⟩ : BufTy).Contents (Elt F) → (⟨S16384x4096, .f32⟩ : BufTy).Contents (Elt F)),
    StableHlo.binary main_v19 main_v19 main_v20 (mulf : (⟨S16384x4096, .f32⟩ : BufTy).Contents (Elt F) → (⟨S16384x4096, .f32⟩ : BufTy).Contents (Elt F) → (⟨S16384x4096, .f32⟩ : BufTy).Contents (Elt F)),
    StableHlo.nullary main_cst (constant S_ .f32 0x00000000#32),
    StableHlo.binary main_v20 main_cst main_v21 ((fun x v => Host.reduceAdd x v reducesTo_S16384x4096_S16384_d1 h_S_) : (⟨S16384x4096, .f32⟩ : BufTy).Contents (Elt F) → (⟨S_, .f32⟩ : BufTy).Contents (Elt F) → (⟨S16384, .f32⟩ : BufTy).Contents (Elt F)),
    StableHlo.nullary main_cst_6 (constant S_ .f32 0x45800000#32),
    StableHlo.unary main_cst_6 main_v22 (broadcastInDim S16384 ![] bcast_S_S16384 : (⟨S_, .f32⟩ : BufTy).Contents (Elt F) → (⟨S16384, .f32⟩ : BufTy).Contents (Elt F)),
    StableHlo.binary main_v21 main_v22 main_v23 (Host.divf : (⟨S16384, .f32⟩ : BufTy).Contents (Elt F) → (⟨S16384, .f32⟩ : BufTy).Contents (Elt F) → (⟨S16384, .f32⟩ : BufTy).Contents (Elt F)),
    -- the mean squared distance to the negative rows
    StableHlo.binary main_arg0 main_v18 main_v24 (subf : (⟨S16384x4096, .f32⟩ : BufTy).Contents (Elt F) → (⟨S16384x4096, .f32⟩ : BufTy).Contents (Elt F) → (⟨S16384x4096, .f32⟩ : BufTy).Contents (Elt F)),
    StableHlo.binary main_v24 main_v24 main_v25 (mulf : (⟨S16384x4096, .f32⟩ : BufTy).Contents (Elt F) → (⟨S16384x4096, .f32⟩ : BufTy).Contents (Elt F) → (⟨S16384x4096, .f32⟩ : BufTy).Contents (Elt F)),
    StableHlo.nullary main_cst_7 (constant S_ .f32 0x00000000#32),
    StableHlo.binary main_v25 main_cst_7 main_v26 ((fun x v => Host.reduceAdd x v reducesTo_S16384x4096_S16384_d1 h_S_) : (⟨S16384x4096, .f32⟩ : BufTy).Contents (Elt F) → (⟨S_, .f32⟩ : BufTy).Contents (Elt F) → (⟨S16384, .f32⟩ : BufTy).Contents (Elt F)),
    StableHlo.nullary main_cst_8 (constant S_ .f32 0x45800000#32),
    StableHlo.unary main_cst_8 main_v27 (broadcastInDim S16384 ![] bcast_S_S16384 : (⟨S_, .f32⟩ : BufTy).Contents (Elt F) → (⟨S16384, .f32⟩ : BufTy).Contents (Elt F)),
    StableHlo.binary main_v26 main_v27 main_v28 (Host.divf : (⟨S16384, .f32⟩ : BufTy).Contents (Elt F) → (⟨S16384, .f32⟩ : BufTy).Contents (Elt F) → (⟨S16384, .f32⟩ : BufTy).Contents (Elt F)),
    -- the margin and the mean over the samples
    StableHlo.binary main_v23 main_v28 main_v29 (subf : (⟨S16384, .f32⟩ : BufTy).Contents (Elt F) → (⟨S16384, .f32⟩ : BufTy).Contents (Elt F) → (⟨S16384, .f32⟩ : BufTy).Contents (Elt F)),
    StableHlo.nullary main_cst_9 (constant S_ .f32 0x3DCCCCCD#32),
    StableHlo.unary main_cst_9 main_v30 (broadcastInDim S16384 ![] bcast_S_S16384 : (⟨S_, .f32⟩ : BufTy).Contents (Elt F) → (⟨S16384, .f32⟩ : BufTy).Contents (Elt F)),
    StableHlo.binary main_v29 main_v30 main_v31 (addf : (⟨S16384, .f32⟩ : BufTy).Contents (Elt F) → (⟨S16384, .f32⟩ : BufTy).Contents (Elt F) → (⟨S16384, .f32⟩ : BufTy).Contents (Elt F)),
    StableHlo.nullary main_cst_10 (constant S_ .f32 0x00000000#32),
    StableHlo.binary main_v31 main_cst_10 main_v32 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_11 (constant S_ .f32 0x46800000#32),
    StableHlo.binary main_v32 main_cst_11 main_v33 (Host.divf : (⟨S_, .f32⟩ : BufTy).Contents (Elt F) → (⟨S_, .f32⟩ : BufTy).Contents (Elt F) → (⟨S_, .f32⟩ : BufTy).Contents (Elt F)) ]

/-- @main's 88 operations, in order, each call's operations where the call is made. -/
abbrev ops : List (HloOp τ sig (Elt F)) := ops0 ++ (ops1 ++ (ops2 ++ (ops3 ++ ops4)))

/-- @main is the five stretches one after the other: the called functions unfold where they are called, the
    records at their fields, and sequencing reassociates, all by computation. -/
theorem main_chain (c : Dev nD) : main (F := F) c = Pipeline.chain
    [StableHlo.seq ops0, StableHlo.seq ops1, StableHlo.seq ops2, StableHlo.seq ops3, StableHlo.seq ops4] := by
  chain_rfl

/-- A line closed by the empty return is the line. -/
theorem seq_bind_pure (l : List (HloOp τ sig (Elt F))) :
    ((StableHlo.seq l : Prog (TpuEff nD τ sig (Elt F) (Pipeline.Sig Λ₀ (Fin 0) fun p => (pcfgs (F := F) p).Adm) .tc) PUnit)
      >>= fun _ => pure ⟨⟩) = StableHlo.seq l := by
  have h := StableHlo.seq_append (nD := nD) (Λ := Pipeline.Sig Λ₀ (Fin 0) fun p => (pcfgs (F := F) p).Adm) l []
  rw [List.append_nil] at h
  exact h.symm

/-- @main is that straight line. -/
theorem main_eq (c : Dev nD) : main (F := F) c = StableHlo.seq ops := by
  rw [main_chain]
  simp only [Pipeline.chain_cons, Pipeline.chain_nil, ops, StableHlo.seq_append, seq_bind_pure]

theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops0_sub : (ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem ops1_sub : (ops1 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub ..,
    StableHlo.ternary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub ..,
    StableHlo.binary_bufs_sub .., StableHlo.nullary_bufs_sub .., StableHlo.binary_bufs_sub .., StableHlo.unary_bufs_sub ..,
    StableHlo.binary_bufs_sub .., StableHlo.binary_bufs_sub .., StableHlo.unary_bufs_sub .., StableHlo.binary_bufs_sub ..,
    StableHlo.ternary_bufs_sub ..⟩
theorem ops2_sub : (ops2 : List (HloOp τ sig (Elt F))).Forall fun op => op.bufs ⊆ StableHlo.tcRefs τ sig :=
  ⟨StableHlo.binary_bufs_sub .., StableHlo.nullary_bufs_sub ..⟩
theorem ops3_sub : (ops3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub ..,
    StableHlo.ternary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub ..,
    StableHlo.binary_bufs_sub .., StableHlo.nullary_bufs_sub .., StableHlo.binary_bufs_sub .., StableHlo.unary_bufs_sub ..,
    StableHlo.binary_bufs_sub .., StableHlo.binary_bufs_sub .., StableHlo.unary_bufs_sub .., StableHlo.binary_bufs_sub ..,
    StableHlo.ternary_bufs_sub ..⟩
theorem ops4_sub : (ops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub ..,
    StableHlo.binary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub ..,
    StableHlo.binary_bufs_sub ..,
    StableHlo.binary_bufs_sub .., StableHlo.binary_bufs_sub .., StableHlo.nullary_bufs_sub .., StableHlo.binary_bufs_sub ..,
    StableHlo.nullary_bufs_sub .., StableHlo.unary_bufs_sub .., StableHlo.binary_bufs_sub ..,
    StableHlo.binary_bufs_sub .., StableHlo.binary_bufs_sub .., StableHlo.nullary_bufs_sub .., StableHlo.binary_bufs_sub ..,
    StableHlo.nullary_bufs_sub .., StableHlo.unary_bufs_sub .., StableHlo.binary_bufs_sub ..,
    StableHlo.binary_bufs_sub .., StableHlo.nullary_bufs_sub .., StableHlo.unary_bufs_sub .., StableHlo.binary_bufs_sub ..,
    StableHlo.nullary_bufs_sub .., StableHlo.binary_bufs_sub .., StableHlo.nullary_bufs_sub .., StableHlo.binary_bufs_sub ..⟩
theorem ops_sub : (ops : List (HloOp τ sig (Elt F))).Forall fun op => op.bufs ⊆ StableHlo.tcRefs τ sig :=
  List.forall_append.2 ⟨ops0_sub, List.forall_append.2 ⟨ops1_sub, List.forall_append.2 ⟨ops2_sub,
    List.forall_append.2 ⟨ops3_sub, ops4_sub⟩⟩⟩⟩

/-- Every operation determines its results: none only allocates. -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops4_fresh : ∀ op ∈ (ops4 : List (HloOp τ sig (Elt F))), op.fresh = ∅ := by
  intro _ h; (repeat (cases h with | head => rfl | tail _ h => ?_)); exact nomatch h
theorem ops_fresh : ∀ op ∈ (ops : List (HloOp τ sig (Elt F))), op.fresh = ∅ := by
  intro op h
  rcases List.mem_append.1 h with h | h
  · exact ops0_fresh op h
  rcases List.mem_append.1 h with h | h
  · exact ops1_fresh op h
  rcases List.mem_append.1 h with h | h
  · exact ops2_fresh op h
  rcases List.mem_append.1 h with h | h
  · exact ops3_fresh op h
  · exact ops4_fresh op h

/-- The fold of two lines one after the other is the second's fold of the first's. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by
    rw [List.cons_append, StableHlo.after_cons, StableHlo.after_cons, after_app l₁ l₂]

/-- No operation writes an argument's buffer. -/
theorem arg0_eq (V : Valuation τ sig (Elt F)) :
    StableHlo.after ops V (main_arg0 : DevRef τ sig) = V (main_arg0 : DevRef τ sig) := by
  simp only [ops, after_app]
  after_results_simp

theorem arg1_eq (V : Valuation τ sig (Elt F)) :
    StableHlo.after ops V (main_arg1 : DevRef τ sig) = V (main_arg1 : DevRef τ sig) := by
  simp only [ops, after_app]
  after_results_simp
theorem arg2_eq (V : Valuation τ sig (Elt F)) :
    StableHlo.after ops V (main_arg2 : DevRef τ sig) = V (main_arg2 : DevRef τ sig) := by
  simp only [ops, after_app]
  after_results_simp
theorem arg3_eq (V : Valuation τ sig (Elt F)) :
    StableHlo.after ops V (main_arg3 : DevRef τ sig) = V (main_arg3 : DevRef τ sig) := by
  simp only [ops, after_app]
  after_results_simp

/-- The fold at the result buffer is the composed function of the arguments' contents: each operation's result
    read at its own buffer is its function's value at its operands' contents, and at any other buffer what was
    there; what is left is the operations composed, which is how the function was written. The two sides then
    differ only by the transports along the typed references' type equations (identities at these literal
    references) and by the identity conversion of each divisor, so they are equal by computation. -/
theorem out_eq (V : Valuation τ sig (Elt F)) :
    StableHlo.after ops V (main_v33 : DevRef τ sig)
      = refFn (V (main_arg0 : DevRef τ sig)) (V (main_arg1 : DevRef τ sig)) (V (main_arg2 : DevRef τ sig))
          (V (main_arg3 : DevRef τ sig)) := by
  simp only [ops, after_app]
  after_results_simp
  chain_rfl

end Line

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v33)
          = refFn (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v33).trans (out_eq _), (h c main_arg0).trans (arg0_eq _),
      (h c main_arg1).trans (arg1_eq _), (h c main_arg2).trans (arg2_eq _), (h c main_arg3).trans (arg3_eq _)⟩)
    (StableHlo.run_seq scopedRefs_eq scopedSems_eq defs main (fun _ => ops) main_eq (fun _ => ops_sub) m ρ
      (fun _ => ops_fresh))

end Cert.ReferenceIdeal.RV

end
-- ==== Proof.RefValue.lean ====
/-
  The reference's result over the extended reals, when the float arguments are finite and the labels are labels:
  the real number `Spec.refLoss`.
-/
import proofs.«407653_j73632919323010_3_alg».proof.Proof.RefFn
import proofs.«407653_j73632919323010_3_alg».proof.Proof.Spec
import proofs.«407653_j73632919323010_3_alg».proof.Proof.Consts
import Idealize.ShloMosaic.PureOps.Ideal.Laws
import Idealize.ShloMosaic.Lib.ValueIdx

noncomputable section

namespace Cert.ReferenceIdeal.RV

open Idealize.ShloMosaic Idealize.ShloMosaic.ValueIdx Cert.ReferenceIdeal
open Cert.ReferenceIdeal.Facts₀

/-- A finite sum of real numbers, read in the extended reals, is the sum of the readings. -/
private theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A label word below ten is not negative as a signed word. -/
private theorem label_not_neg : ∀ k : Fin 10, IntOp.cmpi .slt (BitVec.ofNat 32 k.val) 0#32 = 0#1 := by decide

/-- A label word below ten, read signed and clamped into the table's ten rows, is itself. -/
private theorem label_clamp : ∀ k : Fin 10, min (BitVec.ofNat 32 k.val).toInt.toNat 9 = k.val := by decide

/-- A vector of 16384 entries written as a column, read at row `r`: entry `r`. -/
private theorem bcast_col_apply {α : Type} (x : S16384.Idx → α) (r : Fin 16384) (c : Fin 1) :
    broadcastInDim S16384x1 ![0] bcast_S16384_S16384x1_0 x (ix2 r c) = x (ix1 r) := by
  unfold broadcastInDim
  congr 1
  funext a
  match a with
  | ⟨0, _⟩ => rfl

/-- The start index of a sample whose label word is one of the ten labels: the label itself. -/
private theorem wrapIdx_apply (i : IVec S16384 32) (r : Fin 16384) (c : Fin 1) (k : Fin 10)
    (hk : i (ix1 r) = BitVec.ofNat 32 k.val) : wrapIdx i (ix2 r c) = BitVec.ofNat 32 k.val := by
  unfold wrapIdx
  rw [bcast_col_apply]
  show Scalar.select (IntOp.cmpi .slt (i (ix1 r)) 0#32) _ (i (ix1 r)) = _
  rw [hk, label_not_neg k, select_zero]

local notation "G" => gather_S10x4096_S16384x1_S16384x4096_1_0_n_n_0_1_14096

/-- The gather of table rows read at sample `r`, feature `d`: the table at the row the start index names, read
    signed and clamped into the ten rows, and at feature `d`. -/
private theorem gather_apply {α : Type} (x : S10x4096.Idx → α) (idx : IVec S16384x1 32) (r : Fin 16384) (d : Fin 4096) :
    Host.gather G x idx (ix2 r d) = x (ix2 ⟨min (idx (ix2 r 0)).toInt.toNat 9, by omega⟩ d) := by
  unfold Host.gather
  congr 1
  funext a
  refine Fin.ext ?_
  match a with
  | ⟨0, _⟩ =>
    show GatherDims.start G (ix2 r d) idx 0 + GatherDims.batchCoord G (ix2 r d) 0 + GatherDims.offCoord G (ix2 r d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap G from List.mem_singleton.mpr rfl)]
    have hsi : GatherDims.siIdx G (ix2 r d) ⟨List.idxOf (0 : Fin 2) (GatherDims.startIndexMap G),
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show GatherDims.start G (ix2 r d) idx 1 + GatherDims.batchCoord G (ix2 r d) 1 + GatherDims.offCoord G (ix2 r d) 1 = d.val
    rw [GatherDims.batchCoord_eq_zero _ _ _ List.not_mem_nil]
    unfold GatherDims.start
    rw [dif_neg (show (1 : Fin 2) ∉ GatherDims.startIndexMap G by decide)]
    unfold GatherDims.offCoord
    rw [dif_pos (show (1 : Fin 2) ∈ GatherDims.sKept G by decide)]
    simp only [Nat.zero_add]
    rfl

/-- The anchor row of a sample whose label word is label `k`, read at feature `d`: row `k` of the table. -/
private theorem rowsAt_apply (A : Cert.Spec.SAnch.Idx → ℝ) (i : IVec S16384 32) (r : Fin 16384) (d : Fin 4096) (k : Fin 10)
    (hk : i (ix1 r) = BitVec.ofNat 32 k.val) :
    rowsAt (F := Ideal) (fun j => ((A j : ℝ) : EReal)) i (ix2 r d) = ((A (ix2 k d) : ℝ) : EReal) := by
  unfold rowsAt
  rw [gather_apply]
  have e : ∀ h, (⟨min (wrapIdx i (ix2 r 0)).toInt.toNat 9, h⟩ : Fin 10) = k := fun h =>
    Fin.ext (by
      show min (wrapIdx i (ix2 r 0)).toInt.toNat 9 = k.val
      rw [wrapIdx_apply i r 0 k hk]; exact label_clamp k)
  rw [e]

/-- The mean squared distance of sample `r` to the anchor row of its label `k`: the sum over the 4096 features of
    the squared differences, over 4096, a real number. -/
private theorem mseTo_apply (P : Cert.Spec.SPred.Idx → ℝ) (A : Cert.Spec.SAnch.Idx → ℝ) (i : IVec S16384 32) (r : Fin 16384)
    (k : Fin 10) (hk : i (ix1 r) = BitVec.ofNat 32 k.val) :
    mseTo (F := Ideal) (fun j => ((P j : ℝ) : EReal)) (fun j => ((A j : ℝ) : EReal)) i (ix1 r)
      = (((∑ d : Fin 4096, (P (ix2 r d) - A (ix2 k d)) * (P (ix2 r d) - A (ix2 k d))) / 4096 : ℝ) : EReal) := by
  have hred : S16384x4096.Reduces [1] S16384 := by decide
  unfold mseTo
  show Ideal.div (Ideal.hostReduceAdd reducesTo_S16384x4096_S16384_d1 _ (Ideal.ofBits .f32 0x00000000#32) (ix1 r))
    (Ideal.ofBits .f32 0x45800000#32) = _
  rw [Ideal.hostReduceAdd_single _ hred, Ideal.ofBits_zero_f32, zero_add, Cert.Consts.ofBits_4096,
    Ideal.div_coe (by norm_num : (4096 : ℝ) ≠ 0)]
  have hlift : ∀ d : Fin 4096, hred.lift (ix1 r) d = ix2 r d := fun d => by
    funext a
    match a with
    | ⟨0, _⟩ => exact Fin.ext rfl
    | ⟨1, _⟩ => exact Fin.ext rfl
  have hsum : (∑ d : Fin 4096,
      mulf (subf (fun j => ((P j : ℝ) : EReal)) (rowsAt (F := Ideal) (fun j => ((A j : ℝ) : EReal)) i))
        (subf (fun j => ((P j : ℝ) : EReal)) (rowsAt (F := Ideal) (fun j => ((A j : ℝ) : EReal)) i)) (hred.lift (ix1 r) d))
      = ((∑ d : Fin 4096, (P (ix2 r d) - A (ix2 k d)) * (P (ix2 r d) - A (ix2 k d)) : ℝ) : EReal) := by
    rw [coe_sum]
    refine Finset.sum_congr rfl fun d _ => ?_
    rw [hlift d]
    show (((P (ix2 r d) : ℝ) : EReal) - rowsAt (F := Ideal) (fun j => ((A j : ℝ) : EReal)) i (ix2 r d))
      * (((P (ix2 r d) : ℝ) : EReal) - rowsAt (F := Ideal) (fun j => ((A j : ℝ) : EReal)) i (ix2 r d)) = _
    rw [rowsAt_apply A i r d k hk, ← EReal.coe_sub, ← EReal.coe_mul]
  show (∑ d : Fin 4096, _) * _ = _
  rw [hsum, ← EReal.coe_mul, mul_one_div]

/-- A sum over the index set of a vector of 16384 entries is the sum over the entries' positions. -/
private theorem sum_idx1 {M : Type} [AddCommMonoid M] (f : S16384.Idx → M) :
    ∑ i : S16384.Idx, f i = ∑ r : Fin 16384, f (ix1 r) :=
  Fintype.sum_equiv ⟨fun j => j 0, fun r => ix1 r, fun j => (eq_ix1 j).symm, fun _ => rfl⟩ _ _
    (fun j => congrArg f (eq_ix1 j))

theorem refFn_real (pred : FVec Ideal S16384x4096 .f32) (anch : FVec Ideal S10x4096 .f32) (clss off : IVec S16384 32)
    (P : Cert.Spec.SPred.Idx → ℝ) (A : Cert.Spec.SAnch.Idx → ℝ) (pos neg : Fin 16384 → Fin 10)
    (hP : pred = fun i => ((P i : ℝ) : EReal)) (hA : anch = fun i => ((A i : ℝ) : EReal))
    (hpos : ∀ r : Fin 16384, clss (ix1 r) = BitVec.ofNat 32 (pos r).val)
    (hneg : ∀ r : Fin 16384, Cert.IntChain.negChain clss off (ix1 r) = BitVec.ofNat 32 (neg r).val) :
    refFn (F := Ideal) pred anch clss off
      = fun _ => ((Cert.Spec.refLoss P A pos neg Cert.Consts.margin : ℝ) : EReal) := by
  subst hP hA
  funext j
  unfold refFn
  show Ideal.div (Ideal.hostReduceAdd reducesTo_S16384_S_d0 _ (Ideal.ofBits .f32 0x00000000#32) j)
    (Ideal.ofBits .f32 0x46800000#32) = _
  rw [Ideal.hostReduceAdd_total _ (fun b => b.elim0), sum_idx1, Ideal.ofBits_zero_f32, zero_add,
    Cert.Consts.ofBits_16384, Ideal.div_coe (by norm_num : (16384 : ℝ) ≠ 0)]
  have hsum : (∑ r : Fin 16384,
      addf (subf (mseTo (F := Ideal) (fun i => ((P i : ℝ) : EReal)) (fun i => ((A i : ℝ) : EReal)) clss)
          (mseTo (F := Ideal) (fun i => ((P i : ℝ) : EReal)) (fun i => ((A i : ℝ) : EReal)) (Cert.IntChain.negChain clss off)))
        (broadcastInDim S16384 ![] bcast_S_S16384 (constant (F := Ideal) S_ .f32 0x3DCCCCCD#32)) (ix1 r))
      = ((∑ r : Fin 16384,
          ((∑ d : Fin 4096, (P (ix2 r d) - A (ix2 (pos r) d)) * (P (ix2 r d) - A (ix2 (pos r) d))) / 4096
            - (∑ d : Fin 4096, (P (ix2 r d) - A (ix2 (neg r) d)) * (P (ix2 r d) - A (ix2 (neg r) d))) / 4096
            + Cert.Consts.margin) : ℝ) : EReal) := by
    rw [coe_sum]
    refine Finset.sum_congr rfl fun r _ => ?_
    show mseTo (F := Ideal) (fun i => ((P i : ℝ) : EReal)) (fun i => ((A i : ℝ) : EReal)) clss (ix1 r)
        - mseTo (F := Ideal) (fun i => ((P i : ℝ) : EReal)) (fun i => ((A i : ℝ) : EReal)) (Cert.IntChain.negChain clss off) (ix1 r)
        + Ideal.ofBits .f32 0x3DCCCCCD#32 = _
    rw [mseTo_apply P A clss r (pos r) (hpos r), mseTo_apply P A (Cert.IntChain.negChain clss off) r (neg r) (hneg r),
      Cert.Consts.ofBits_margin, ← EReal.coe_sub, ← EReal.coe_add]
  show (∑ r : Fin 16384, _) * _ = _
  rw [hsum, ← EReal.coe_mul, mul_one_div]
  rfl

end Cert.ReferenceIdeal.RV

end
-- ==== Proof.PreDecode.lean ====
/-
  The precondition read back: every entry of the two float arguments is a real number, and every label is one of
  the ten classes.
-/
import proofs.«407653_j73632919323010_3_alg».proof.Defs
import proofs.«407653_j73632919323010_3_alg».proof.Proof.Gen.KernelIdeal
import proofs.«407653_j73632919323010_3_alg».proof.Proof.Gen.Pre_finite_inputs
import proofs.«407653_j73632919323010_3_alg».proof.Proof.Spec
import Idealize.ShloMosaic.PureOps.Ideal.Laws
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.TcCoe Idealize.ShloMosaic.ValueIdx Idealize.SL.Sem

/-- The f32 pattern with every exponent bit set and no fraction bit denotes +∞. -/
theorem ofBits_inf : Ideal.ofBits .f32 0x7F800000#32 = (⊤ : EReal) := by
  simp [Ideal.ofBits, Ideal.ieee]

/-- An extended real whose absolute value max x (-x) compares strictly below +∞ is neither +∞ nor -∞, so it is
    the coercion of its real part. -/
theorem real_of_abs_lt (x : EReal)
    (h : Ideal.cmp .olt (max x (-x)) (Ideal.ofBits .f32 0x7F800000#32) = 1#1) :
    x = ((x.toReal : ℝ) : EReal) := by
  rw [ofBits_inf] at h
  simp only [Ideal.cmp, StableHlo.Predicate.ofBool_eq_one_iff, decide_eq_true_eq] at h
  have hx : x < ⊤ := lt_of_le_of_lt (le_max_left _ _) h
  have hnx : -x < ⊤ := lt_of_le_of_lt (le_max_right _ _) h
  have h1 : x ≠ ⊤ := ne_of_lt hx
  have h2 : x ≠ ⊥ := by
    intro e; rw [e] at hnx; simp at hnx
  exact (EReal.coe_toReal h1 h2).symm

/-- A 32-bit word that, read as a signed number, is at least 0 and below 10 is the word of a natural below 10:
    a non-negative signed reading is the unsigned one. -/
theorem label_of_range (w : BitVec 32) (h0 : IntOp.cmpi .sge w 0#32 = 1#1) (h1 : IntOp.cmpi .slt w 10#32 = 1#1) :
    ∃ p : Fin 10, w = BitVec.ofNat 32 p.val := by
  unfold IntOp.cmpi at h0 h1
  simp only [StableHlo.Predicate.ofBool_eq_one_iff, BitVec.sle, BitVec.slt, decide_eq_true_eq] at h0 h1
  have z0 : (0#32 : BitVec 32).toInt = 0 := by decide
  have z10 : (10#32 : BitVec 32).toInt = 10 := by decide
  rw [z0] at h0
  rw [z10] at h1
  have hlt := w.isLt
  rw [BitVec.toInt_eq_toNat_cond] at h0 h1
  have hn : w.toNat < 10 := by
    split at h0 <;> split at h1 <;> omega
  refine ⟨⟨w.toNat, hn⟩, ?_⟩
  apply BitVec.eq_of_toNat_eq
  simp only [BitVec.toNat_ofNat]
  omega

/-- The scalar shape has one index. -/
instance : Subsingleton Cert.Pre_finite_inputs.S_.Idx := ⟨fun a b => funext fun d => d.elim0⟩

/-- The predicate read at its one index is a conjunction of four universally quantified facts, each an `and`-reduction
    from 1 that came out 1: every |a0 i| and every |a1 i| is below +∞, every label is at least 0, every label is below 10.
    Hence every entry of the two float arrays is a real and every label is one of the ten classes. -/
theorem fn_decode (a0 : FVec Ideal Cert.Pre_finite_inputs.S16384x4096 .f32) (a1 : FVec Ideal Cert.Pre_finite_inputs.S10x4096 .f32)
    (a2 a3 : IVec Cert.Pre_finite_inputs.S16384 32)
    (h : Cert.Pre_finite_inputs.fn (F := Ideal) a0 a1 a2 a3 = fun _ => 1#1) :
    (∀ i, a0 i = (((a0 i).toReal : ℝ) : EReal)) ∧ (∀ i, a1 i = (((a1 i).toReal : ℝ) : EReal))
      ∧ ∀ r : Fin 16384, ∃ p : Fin 10, a2 (ix1 r) = BitVec.ofNat 32 p.val := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨hA, hB⟩ := IntOp.andi_eq_one.1 h01
  refine ⟨fun i => ?_, fun i => ?_, fun r => ?_⟩
  · exact real_of_abs_lt _ (Host.reduce_andi_all _ _ _ _ _ hA i)
  · exact real_of_abs_lt _ (Host.reduce_andi_all _ _ _ _ _ hB i)
  · exact label_of_range _ (Host.reduce_andi_all _ _ _ _ _ h2 (ix1 r)) (Host.reduce_andi_all _ _ _ _ _ h3 (ix1 r))

theorem decode (m : (ℓ : Loc Cert.KernelIdeal.nD Cert.KernelIdeal.τ Cert.KernelIdeal.sig) → Buf (Elt Ideal) ℓ)
    (h : Cert.Pre_KernelIdeal m) (c : Dev Cert.KernelIdeal.nD) :
    ∃ (P : Cert.Spec.SPred.Idx → ℝ) (A : Cert.Spec.SAnch.Idx → ℝ) (pos : Fin 16384 → Fin 10),
      m ((c.tc : Thread Cert.KernelIdeal.nD Cert.KernelIdeal.τ).loc Cert.KernelIdeal.main_arg0) = (fun i => ((P i : ℝ) : EReal))
      ∧ m ((c.tc : Thread Cert.KernelIdeal.nD Cert.KernelIdeal.τ).loc Cert.KernelIdeal.main_arg1) = (fun i => ((A i : ℝ) : EReal))
      ∧ ∀ r : Fin 16384,
          m ((c.tc : Thread Cert.KernelIdeal.nD Cert.KernelIdeal.τ).loc Cert.KernelIdeal.main_arg2) (ix1 r)
            = BitVec.ofNat 32 (pos r).val := by
  obtain ⟨hP, hA, hL⟩ := fn_decode _ _ _ _ (h c)
  exact ⟨fun i => (m ((c.tc : Thread Cert.KernelIdeal.nD Cert.KernelIdeal.τ).loc Cert.KernelIdeal.main_arg0) i).toReal,
    fun i => (m ((c.tc : Thread Cert.KernelIdeal.nD Cert.KernelIdeal.τ).loc Cert.KernelIdeal.main_arg1) i).toReal,
    fun r => Classical.choose (hL r), funext hP, funext hA, fun r => Classical.choose_spec (hL r)⟩

end Cert.PreDecode

end
-- ==== Proof.lean ====
/-
  The certificate of the triplet-loss kernel against its jnp reference, over the extended reals.

  The claim holds where every sample's positive label is one of the ten classes (the precondition states it beside
  the finiteness of the float inputs): there the reference's anchor gather reads the label's row, and the kernel's
  128-lane selection picks the same row of the zero-padded table. The negative label is a floor remainder by ten,
  a class whatever the inputs. For real inputs the reference's
  `mean_d (p − a_pos)² − mean_d (p − a_neg)²` is the kernel's `(1/D) Σ_c w_c (‖a_c‖² − 2 p·a_c)`, the squared norm of
  the sample cancelling; the sums over samples are the same sum in another order, and the margin added once after
  the mean is the margin added to every sample before it.

  The two word-level and ideal frames of the kernel are the generated ones; the reference's frame is its run with
  the result dropped; the idealization rewrote nothing.
-/
import proofs.«407653_j73632919323010_3_alg».proof.Defs
import proofs.«407653_j73632919323010_3_alg».proof.Proof.Gen.Kernel
import proofs.«407653_j73632919323010_3_alg».proof.Proof.Gen.Kernel.Frame
import proofs.«407653_j73632919323010_3_alg».proof.Proof.Gen.KernelIdeal
import proofs.«407653_j73632919323010_3_alg».proof.Proof.Gen.KernelIdeal.Frame
import proofs.«407653_j73632919323010_3_alg».proof.Proof.Gen.ReferenceIdeal
import proofs.«407653_j73632919323010_3_alg».proof.Proof.Gen.Pre_finite_inputs
import proofs.«407653_j73632919323010_3_alg».proof.Proof.KerTail
import proofs.«407653_j73632919323010_3_alg».proof.Proof.RefRun
import proofs.«407653_j73632919323010_3_alg».proof.Proof.RefValue
import proofs.«407653_j73632919323010_3_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RV.run (F := Ideal) m ρ)

/-- Both programs end at the one real number: the kernel's run at `Spec.kerLoss`, the reference's at
    `Spec.refLoss` of arguments that agree, and the two losses are equal. -/
theorem algebraic : Cert.algebraic_KernelIdeal_ReferenceIdeal := by
  intro m ρ m' ρ' hpre hagree
  choose P A pos hP hA hpos using Cert.PreDecode.decode m hpre
  choose neg hneg using fun (c : Dev Cert.KernelIdeal.nD) (r : Fin 16384) =>
    Cert.IntChain.negChain_range
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) r
  refine ⟨fun c _ => ((Cert.Spec.kerLoss (P c) (A c) (pos c) (neg c) Cert.Consts.margin : ℝ) : EReal),
    Cert.KernelIdeal.KV.run m ρ P A pos neg hP hA hpos hneg, ?_⟩
  refine (θ_run Cert.ReferenceIdeal.defs _ _).mono (fun _ h c => ⟨(h c).1.trans ?_, (h c).2⟩)
    (Cert.ReferenceIdeal.RV.run (F := Ideal) m' ρ')
  rw [(hagree c).1, (hagree c).2.1, (hagree c).2.2.1, (hagree c).2.2.2]
  rw [Cert.ReferenceIdeal.RV.refFn_real _ _ _ _ (P c) (A c) (pos c) (neg c) (hP c) (hA c) (hpos c) (hneg c)]
  show _ = fun _ => ((Cert.Spec.kerLoss (P c) (A c) (pos c) (neg c) Cert.Consts.margin : ℝ) : EReal)
  rw [Cert.Spec.kerLoss_eq_refLoss]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
